-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2 : Shape := ⟨2, ![1024, 2]⟩
abbrev S32x2 : Shape := ⟨2, ![32, 2]⟩
abbrev S32 : Shape := ⟨1, ![32]⟩
abbrev S32x32 : Shape := ⟨2, ![32, 32]⟩
abbrev S64x32 : Shape := ⟨2, ![64, 32]⟩
abbrev S64 : Shape := ⟨1, ![64]⟩
abbrev S262144x64 : Shape := ⟨2, ![262144, 64]⟩
abbrev S262144x512 : Shape := ⟨2, ![262144, 512]⟩
abbrev S_ : Shape := ⟨0, ![]⟩

class Facts : Prop where
  bcast_S_S32x2 : S_.BroadcastsInDim S32x2 (![] : Fin 0 → Fin S32x2.rank)
  reducesTo_S32x2_S_d0_1 : S32x2.ReducesTo [0, 1] S_
  h_S_ : 0 < S_.numel
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S262144x64 : S_.BroadcastsInDim S262144x64 (![] : Fin 0 → Fin S262144x64.rank)
  reducesTo_S262144x64_S_d0_1 : S262144x64.ReducesTo [0, 1] S_
  bcast_S_S262144x512 : S_.BroadcastsInDim S262144x512 (![] : Fin 0 → Fin S262144x512.rank)
  reducesTo_S262144x512_S_d0_1 : S262144x512.ReducesTo [0, 1] S_

variable [Facts]

def fn_part2 {F : FTy → Type} [FloatOps F] (main_arg8 : FVec F S262144x512 .f32) (main_v33 : IVec S_ 1) : IVec S_ 1 :=
  let main_v34 : FVec F S262144x512 .f32 := Host.absf main_arg8
  let main_cst_12 : FVec F S_ .f32 := constant S_ .f32 0x7F800000#32
  let main_v35 : FVec F S262144x512 .f32 := broadcastInDim S262144x512 ![] bcast_S_S262144x512 main_cst_12
  let main_v36 : IVec S262144x512 1 := cmpf .olt main_v34 main_v35
  let main_c_13 : IVec S_ 1 := constantI S_ 1 1#1
  let main_v37 : IVec S_ 1 := (fun x v => Host.reduce IntOp.andi x v reducesTo_S262144x512_S_d0_1 h_S_) main_v36 main_c_13
  let main_v38 : IVec S_ 1 := andi main_v33 main_v37
  main_v38

def fn_part1 {F : FTy → Type} [FloatOps F] (main_arg5 : FVec F S64x32 .f32) (main_arg6 : FVec F S64 .f32) (main_arg7 : FVec F S262144x64 .f32) (main_arg8 : FVec F S262144x512 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S262144x64 .f32 := Host.absf main_arg7
  let main_cst_10 : FVec F S_ .f32 := constant S_ .f32 0x7F800000#32
  let main_v30 : FVec F S262144x64 .f32 := broadcastInDim S262144x64 ![] bcast_S_S262144x64 main_cst_10
  let main_v31 : IVec S262144x64 1 := cmpf .olt main_v29 main_v30
  let main_c_11 : IVec S_ 1 := constantI S_ 1 1#1
  let main_v32 : IVec S_ 1 := (fun x v => Host.reduce IntOp.andi x v reducesTo_S262144x64_S_d0_1 h_S_) main_v31 main_c_11
  let main_v33 : IVec S_ 1 := andi main_v28 main_v32
  fn_part2 (F := F) main_arg8 main_v33

def fn {F : FTy → Type} [FloatOps F] (main_arg0 : IVec S1024x2 32) (main_arg1 : FVec F S32x2 .f32) (main_arg2 : FVec F S32 .f32) (main_arg3 : FVec F S32x32 .f32) (main_arg4 : FVec F S32 .f32) (main_arg5 : FVec F S64x32 .f32) (main_arg6 : FVec F S64 .f32) (main_arg7 : FVec F S262144x64 .f32) (main_arg8 : FVec F S262144x512 .f32) : IVec S_ 1 :=
  let main_v0 : FVec F S32x2 .f32 := Host.absf main_arg1
  let main_cst : FVec F S_ .f32 := constant S_ .f32 0x7F800000#32
  let main_v1 : FVec F S32x2 .f32 := broadcastInDim S32x2 ![] bcast_S_S32x2 main_cst
  let main_v2 : IVec S32x2 1 := cmpf .olt main_v0 main_v1
  let main_c : IVec S_ 1 := constantI S_ 1 1#1
  let main_v3 : IVec S_ 1 := (fun x v => Host.reduce IntOp.andi x v reducesTo_S32x2_S_d0_1 h_S_) main_v2 main_c
  let main_v4 : FVec F S32 .f32 := Host.absf main_arg2
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_v13 main_v16
-- ==== Kernel.lean ====
abbrev S1024x2 : Shape := ⟨2, ![1024, 2]⟩
abbrev S32x2 : Shape := ⟨2, ![32, 2]⟩
abbrev S32 : Shape := ⟨1, ![32]⟩
abbrev S32x32 : Shape := ⟨2, ![32, 32]⟩
abbrev S64x32 : Shape := ⟨2, ![64, 32]⟩
abbrev S64 : Shape := ⟨1, ![64]⟩
abbrev S262144x64 : Shape := ⟨2, ![262144, 64]⟩
abbrev S262144x512 : Shape := ⟨2, ![262144, 512]⟩
abbrev S2x32 : Shape := ⟨2, ![2, 32]⟩
abbrev S1024x32 : Shape := ⟨2, ![1024, 32]⟩
abbrev S1x32 : Shape := ⟨2, ![1, 32]⟩
abbrev S_ : Shape := ⟨0, ![]⟩
abbrev S32x64 : Shape := ⟨2, ![32, 64]⟩
abbrev S1024x64 : Shape := ⟨2, ![1024, 64]⟩
abbrev S1x64 : Shape := ⟨2, ![1, 64]⟩
abbrev S2x1024x512 : Shape := ⟨3, ![2, 1024, 512]⟩
abbrev S2x1024x1 : Shape := ⟨3, ![2, 1024, 1]⟩
abbrev S2048x64 : Shape := ⟨2, ![2048, 64]⟩
abbrev S2048x512 : Shape := ⟨2, ![2048, 512]⟩
abbrev S1x1024x512 : Shape := ⟨3, ![1, 1024, 512]⟩
abbrev S1x1024x1 : Shape := ⟨3, ![1, 1024, 1]⟩
abbrev S1024x512 : Shape := ⟨2, ![1024, 512]⟩
abbrev S1024x1 : Shape := ⟨2, ![1024, 1]⟩
abbrev S1024x2048 : Shape := ⟨2, ![1024, 2048]⟩
abbrev S1024 : Shape := ⟨1, ![1024]⟩

abbrev nBuf : Space → Nat
  | .hbm => 62
  | .vmem => 11
  | .smem => 0
  | _ => 0

abbrev bufTy : (tb : Table) → Fin (tcTables nBuf tb) → BufTy
  | .hbm, ⟨0, _⟩ => ⟨S1024x2, .i32⟩
  | .hbm, ⟨1, _⟩ => ⟨S32x2, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S64x32, .f32⟩
  | .hbm, ⟨6, _⟩ => ⟨S64, .f32⟩
  | .hbm, ⟨7, _⟩ => ⟨S262144x64, .f32⟩
  | .hbm, ⟨8, _⟩ => ⟨S262144x512, .f32⟩
  | .hbm, ⟨9, _⟩ => ⟨S1024x2, .f32⟩
  | .hbm, ⟨10, _⟩ => ⟨S2x32, .f32⟩
  | .hbm, ⟨11, _⟩ => ⟨S1024x32, .f32⟩
  | .hbm, ⟨12, _⟩ => ⟨S1x32, .f32⟩
  | .hbm, ⟨13, _⟩ => ⟨S1024x32, .f32⟩
  | .hbm, ⟨14, _⟩ => ⟨S1024x32, .f32⟩
  | .hbm, ⟨15, _⟩ => ⟨S_, .f32⟩
  | .hbm, ⟨16, _⟩ => ⟨S1024x32, .f32⟩
  | .hbm, ⟨17, _⟩ => ⟨S1024x32, .f32⟩
  | .hbm, ⟨18, _⟩ => ⟨S32x32, .f32⟩
  | .hbm, ⟨19, _⟩ => ⟨S1024x32, .f32⟩
  | .hbm, ⟨20, _⟩ => ⟨S1x32, .f32⟩
  | .hbm, ⟨21, _⟩ => ⟨S1024x32, .f32⟩
  | .hbm, ⟨22, _⟩ => ⟨S1024x32, .f32⟩
  | .hbm, ⟨23, _⟩ => ⟨S_, .f32⟩
  | .hbm, ⟨24, _⟩ => ⟨S1024x32, .f32⟩
  | .hbm, ⟨25, _⟩ => ⟨S1024x32, .f32⟩
  | .hbm, ⟨26, _⟩ => ⟨S32x64, .f32⟩
  | .hbm, ⟨27, _⟩ => ⟨S1024x64, .f32⟩
  | .hbm, ⟨28, _⟩ => ⟨S1x64, .f32⟩
  | .hbm, ⟨29, _⟩ => ⟨S1024x64, .f32⟩
  | .hbm, ⟨30, _⟩ => ⟨S1024x64, .f32⟩
  | .hbm, ⟨31, _⟩ => ⟨S1024x64, .bf16⟩
  | .hbm, ⟨32, _⟩ => ⟨S2x1024x512, .f32⟩
  | .hbm, ⟨33, _⟩ => ⟨S2x1024x1, .f32⟩
  | .hbm, ⟨34, _⟩ => ⟨S2x1024x1, .f32⟩
  | .hbm, ⟨35, _⟩ => ⟨S1x1024x1, .f32⟩
  | .hbm, ⟨36, _⟩ => ⟨S1024x1, .f32⟩
  | .hbm, ⟨37, _⟩ => ⟨S1x1024x1, .f32⟩
  | .hbm, ⟨38, _⟩ => ⟨S1024x1, .f32⟩
  | .hbm, ⟨39, _⟩ => ⟨S1x1024x1, .f32⟩
  | .hbm, ⟨40, _⟩ => ⟨S1024x1, .f32⟩
  | .hbm, ⟨41, _⟩ => ⟨S1x1024x1, .f32⟩
  | .hbm, ⟨42, _⟩ => ⟨S1024x1, .f32⟩
  | .hbm, ⟨43, _⟩ => ⟨S1x1024x512, .f32⟩
  | .hbm, ⟨44, _⟩ => ⟨S1024x512, .f32⟩
  | .hbm, ⟨45, _⟩ => ⟨S1x1024x512, .f32⟩
  | .hbm, ⟨46, _⟩ => ⟨S1024x512, .f32⟩
  | .hbm, ⟨47, _⟩ => ⟨S1024x1, .f32⟩
  | .hbm, ⟨48, _⟩ => ⟨S1024x1, .f32⟩
  | .hbm, ⟨49, _⟩ => ⟨S1024x1, .f32⟩
  | .hbm, ⟨50, _⟩ => ⟨S1024x1, .f32⟩
  | .hbm, ⟨51, _⟩ => ⟨S1024x1, .f32⟩
  | .hbm, ⟨52, _⟩ => ⟨S1024x1, .f32⟩
  | .hbm, ⟨53, _⟩ => ⟨S1024x1, .f32⟩
  | .hbm, ⟨54, _⟩ => ⟨S1024x1, .f32⟩
  | .hbm, ⟨55, _⟩ => ⟨S1024x512, .f32⟩
  | .hbm, ⟨56, _⟩ => ⟨S1024x512, .f32⟩
  | .hbm, ⟨57, _⟩ => ⟨S1024x512, .f32⟩
  | .hbm, ⟨58, _⟩ => ⟨S1024x512, .f32⟩
  | .hbm, ⟨59, _⟩ => ⟨S1024x512, .f32⟩
  | .hbm, ⟨60, _⟩ => ⟨S1024x512, .f32⟩
  | .hbm, ⟨61, _⟩ => ⟨S1024x512, .f32⟩
  | .local _ .vmem, ⟨0, _⟩ => ⟨S1024x64, .bf16⟩
  | .local _ .vmem, ⟨1, _⟩ => ⟨S2048x64, .f32⟩
  | .local _ .vmem, ⟨2, _⟩ => ⟨S2048x64, .f32⟩
  | .local _ .vmem, ⟨3, _⟩ => ⟨S2048x512, .f32⟩
  | .local _ .vmem, ⟨4, _⟩ => ⟨S2048x512, .f32⟩
  | .local _ .vmem, ⟨5, _⟩ => ⟨S1x1024x512, .f32⟩
  | .local _ .vmem, ⟨6, _⟩ => ⟨S1x1024x1, .f32⟩
  | .local _ .vmem, ⟨7, _⟩ => ⟨S1x1024x1, .f32⟩
  | .local _ .vmem, ⟨8, _⟩ => ⟨S1024x512, .f32⟩
  | .local _ .vmem, ⟨9, _⟩ => ⟨S1024x1, .f32⟩
  | .local _ .vmem, ⟨10, _⟩ => ⟨S1024x1, .f32⟩
  | _, _ => ⟨S1024x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_cst : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v39 : BitVec 1 := Scalar.cmpi .eq arg1 c63_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

class Facts₀ : Prop where
  transposes_S32x2_S2x32_1_0 : S32x2.Transposes [1, 0] S2x32
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  transposes_S32x32_S32x32_1_0 : S32x32.Transposes [1, 0] S32x32
  transposes_S64x32_S32x64_1_0 : S64x32.Transposes [1, 0] S32x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  reduces_S1024x2048_S1024 : S1024x2048.Reduces [1] S1024
  shapeCasts_S1024_S1024x1 : S1024.ShapeCasts S1024x1
  broadcasts_S1024x1_S1024x2048 : S1024x1.Broadcasts S1024x2048
  inb_S2048x512_S2048x512_0_0 : ∀ a, (![0, 0] : Fin 2 → Nat) a + S2048x512.size a ≤ S2048x512.size a
  h_S2048x512 : 0 < S2048x512.numel
  broadcasts_S1024x1_S1024x512 : S1024x1.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  slices_S2x1024x1_S1x1024x1_0_0_0 : S2x1024x1.Slices ![0, 0, 0] S1x1024x1
  slices_S2x1024x1_S1x1024x1_1_0_0 : S2x1024x1.Slices ![1, 0, 0] S1x1024x1
  slices_S2x1024x512_S1x1024x512_0_0_0 : S2x1024x512.Slices ![0, 0, 0] S1x1024x512
  slices_S2x1024x512_S1x1024x512_1_0_0 : S2x1024x512.Slices ![1, 0, 0] S1x1024x512
  bcast_S1024x1_S1024x512_0_1 : S1024x1.BroadcastsInDim S1024x512 (![0, 1] : Fin 2 → Fin S1024x512.rank)
  dot_S1024x2_S2x32_S1024x32_1_0_0_1_n_n_wf : DotDims.WF S1024x2 S2x32 S1024x32 [1] [0] [0] [1] [] []
  dot_S1024x32_S32x32_S1024x32_1_0_0_1_n_n_wf : DotDims.WF S1024x32 S32x32 S1024x32 [1] [0] [0] [1] [] []
  dot_S1024x32_S32x64_S1024x64_1_0_0_1_n_n_wf : DotDims.WF S1024x32 S32x64 S1024x64 [1] [0] [0] [1] [] []
  dot_S1024x64_S2048x64_S1024x2048_1_1_0_0_n_n_wf : DotDims.WF S1024x64 S2048x64 S1024x2048 [1] [1] [0] [0] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S1024x64.size a
  hwx0_0 : ∀ i : grid0.Coords, EltTy.bits .bf16 = 32 ∨ (Rect.block (s := S1024x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S262144x64.size a
  hwx0_1 : ∀ i : grid0.Coords, EltTy.bits .f32 = 32 ∨ (Rect.block (s := S262144x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S262144x512.size a
  hwx0_2 : ∀ i : grid0.Coords, EltTy.bits .f32 = 32 ∨ (Rect.block (s := S262144x512) S2048x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S2x1024x512.size a
  hwx0_3 : ∀ i : grid0.Coords, EltTy.bits .f32 = 32 ∨ (Rect.block (s := S2x1024x512) S1x1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S2x1024x1.size a
  hwx0_4 : ∀ i : grid0.Coords, EltTy.bits .f32 = 32 ∨ (Rect.block (s := S2x1024x1) S1x1024x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024x1.size a ≤ S2x1024x1.size a
  hwx0_5 : ∀ i : grid0.Coords, EltTy.bits .f32 = 32 ∨ (Rect.block (s := S2x1024x1) S1x1024x1.size (cc0_transform_5 i) (hinb0_5 i)).WholeWords (EltTy.packing .f32)

variable [Facts₀]

def dot_S1024x2_S2x32_S1024x32_1_0_0_1_n_n : DotDims S1024x2 S2x32 S1024x32 where
  lhsContracting := [1]
  rhsContracting := [0]
  lhsNonContracting := [0]
  rhsNonContracting := [1]
  lhsBatch := []
  rhsBatch := []
  wf := dot_S1024x2_S2x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v18) S1024x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S1x1024x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S1x1024x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19_2) S1x1024x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1024x2 : Shape := ⟨2, ![1024, 2]⟩
abbrev S32x2 : Shape := ⟨2, ![32, 2]⟩
abbrev S32 : Shape := ⟨1, ![32]⟩
abbrev S32x32 : Shape := ⟨2, ![32, 32]⟩
abbrev S64x32 : Shape := ⟨2, ![64, 32]⟩
abbrev S64 : Shape := ⟨1, ![64]⟩
abbrev S262144x64 : Shape := ⟨2, ![262144, 64]⟩
abbrev S262144x512 : Shape := ⟨2, ![262144, 512]⟩
abbrev S2x32 : Shape := ⟨2, ![2, 32]⟩
abbrev S1024x32 : Shape := ⟨2, ![1024, 32]⟩
abbrev S1x32 : Shape := ⟨2, ![1, 32]⟩
abbrev S_ : Shape := ⟨0, ![]⟩
abbrev S32x64 : Shape := ⟨2, ![32, 64]⟩
abbrev S1024x64 : Shape := ⟨2, ![1024, 64]⟩
abbrev S1x64 : Shape := ⟨2, ![1, 64]⟩
abbrev S64x262144 : Shape := ⟨2, ![64, 262144]⟩
abbrev S1024x262144 : Shape := ⟨2, ![1024, 262144]⟩
abbrev S1024 : Shape := ⟨1, ![1024]⟩
abbrev S1024x1 : Shape := ⟨2, ![1024, 1]⟩
abbrev S1024x512 : Shape := ⟨2, ![1024, 512]⟩

abbrev nBuf : Space → Nat
  | .hbm => 48
  | .vmem => 0
  | .smem => 0
  | _ => 0

abbrev bufTy : (tb : Table) → Fin (tcTables nBuf tb) → BufTy
  | .hbm, ⟨0, _⟩ => ⟨S1024x2, .i32⟩
  | .hbm, ⟨1, _⟩ => ⟨S32x2, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S64x32, .f32⟩
  | .hbm, ⟨6, _⟩ => ⟨S64, .f32⟩
  | .hbm, ⟨7, _⟩ => ⟨S262144x64, .f32⟩
  | .hbm, ⟨8, _⟩ => ⟨S262144x512, .f32⟩
  | .hbm, ⟨9, _⟩ => ⟨S1024x2, .f32⟩
  | .hbm, ⟨10, _⟩ => ⟨S2x32, .f32⟩
  | .hbm, ⟨11, _⟩ => ⟨S1024x32, .f32⟩
  | .hbm, ⟨12, _⟩ => ⟨S1x32, .f32⟩
  | .hbm, ⟨13, _⟩ => ⟨S1024x32, .f32⟩
  | .hbm, ⟨14, _⟩ => ⟨S1024x32, .f32⟩
  | .hbm, ⟨15, _⟩ => ⟨S_, .f32⟩
  | .hbm, ⟨16, _⟩ => ⟨S1024x32, .f32⟩
  | .hbm, ⟨17, _⟩ => ⟨S1024x32, .f32⟩
  | .hbm, ⟨18, _⟩ => ⟨S32x32, .f32⟩
  | .hbm, ⟨19, _⟩ => ⟨S1024x32, .f32⟩
  | .hbm, ⟨20, _⟩ => ⟨S1x32, .f32⟩
  | .hbm, ⟨21, _⟩ => ⟨S1024x32, .f32⟩
  | .hbm, ⟨22, _⟩ => ⟨S1024x32, .f32⟩
  | .hbm, ⟨23, _⟩ => ⟨S_, .f32⟩
  | .hbm, ⟨24, _⟩ => ⟨S1024x32, .f32⟩
  | .hbm, ⟨25, _⟩ => ⟨S1024x32, .f32⟩
  | .hbm, ⟨26, _⟩ => ⟨S32x64, .f32⟩
  | .hbm, ⟨27, _⟩ => ⟨S1024x64, .f32⟩
  | .hbm, ⟨28, _⟩ => ⟨S1x64, .f32⟩
  | .hbm, ⟨29, _⟩ => ⟨S1024x64, .f32⟩
  | .hbm, ⟨30, _⟩ => ⟨S1024x64, .f32⟩
  | .hbm, ⟨31, _⟩ => ⟨S64x262144, .f32⟩
  | .hbm, ⟨32, _⟩ => ⟨S1024x262144, .f32⟩
  | .hbm, ⟨33, _⟩ => ⟨S_, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024x1, .f32⟩
  | .hbm, ⟨39, _⟩ => ⟨S1024x262144, .f32⟩
  | .hbm, ⟨40, _⟩ => ⟨S1024x262144, .f32⟩
  | .hbm, ⟨41, _⟩ => ⟨S1024x262144, .f32⟩
  | .hbm, ⟨42, _⟩ => ⟨S_, .f32⟩
  | .hbm, ⟨43, _⟩ => ⟨S1024, .f32⟩
  | .hbm, ⟨44, _⟩ => ⟨S1024x1, .f32⟩
  | .hbm, ⟨45, _⟩ => ⟨S1024x262144, .f32⟩
  | .hbm, ⟨46, _⟩ => ⟨S1024x262144, .f32⟩
  | .hbm, ⟨47, _⟩ => ⟨S1024x512, .f32⟩
  | _, _ => ⟨S1024x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_cst : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  transposes_S32x2_S2x32_1_0 : S32x2.Transposes [1, 0] S2x32
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  transposes_S32x32_S32x32_1_0 : S32x32.Transposes [1, 0] S32x32
  transposes_S64x32_S32x64_1_0 : S64x32.Transposes [1, 0] S32x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  transposes_S262144x64_S64x262144_1_0 : S262144x64.Transposes [1, 0] S64x262144
  reducesTo_S1024x262144_S1024_d1 : S1024x262144.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x262144_0_1 : S1024x1.BroadcastsInDim S1024x262144 (![0, 1] : Fin 2 → Fin S1024x262144.rank)
  dot_S1024x2_S2x32_S1024x32_1_0_0_1_n_n_wf : DotDims.WF S1024x2 S2x32 S1024x32 [1] [0] [0] [1] [] []
  dot_S1024x32_S32x32_S1024x32_1_0_0_1_n_n_wf : DotDims.WF S1024x32 S32x32 S1024x32 [1] [0] [0] [1] [] []
  dot_S1024x32_S32x64_S1024x64_1_0_0_1_n_n_wf : DotDims.WF S1024x32 S32x64 S1024x64 [1] [0] [0] [1] [] []
  dot_S1024x64_S64x262144_S1024x262144_1_0_0_1_n_n_wf : DotDims.WF S1024x64 S64x262144 S1024x262144 [1] [0] [0] [1] [] []
  dot_S1024x262144_S262144x512_S1024x512_1_0_0_1_n_n_wf : DotDims.WF S1024x262144 S262144x512 S1024x512 [1] [0] [0] [1] [] []

variable [Facts₀]

def dot_S1024x2_S2x32_S1024x32_1_0_0_1_n_n : DotDims S1024x2 S2x32 S1024x32 where
  lhsContracting := [1]
  rhsContracting := [0]
  lhsNonContracting := [0]
  rhsNonContracting := [1]
  lhsBatch := []
  rhsBatch := []
  wf := dot_S1024x2_S2x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S1024x64_S64x262144_S1024x262144_1_0_0_1_n_n : DotDims S1024x64 S64x262144 S1024x262144 where
  lhsContracting := [1]
  rhsContracting := [0]
  lhsNonContracting := [0]
  rhsNonContracting := [1]
  lhsBatch := []
  rhsBatch := []
  wf := dot_S1024x64_S64x262144_S1024x262144_1_0_0_1_n_n_wf
def dot_S1024x262144_S262144x512_S1024x512_1_0_0_1_n_n : DotDims S1024x262144 S262144x512 S1024x512 where
  lhsContracting := [1]
  rhsContracting := [0]
  lhsNonContracting := [0]
  rhsNonContracting := [1]
  lhsBatch := []
  rhsBatch := []
  wf := dot_S1024x262144_S262144x512_S1024x512_1_0_0_1_n_n_wf

class Facts : Prop extends Facts₀ where

variable [Facts]
-- ==== Proof.Step.lean ====
/-
  One step of the streaming sweep, on whole vectors.

  At every grid point the kernel body takes the query block `q`, a tile of 2048 key rows `kb` and the
  matching tile of value rows `vb`, and replaces the three carried arrays — the running weighted sum
  `acc` (1024 × 512), the running maximum `mx` (1024 × 1) and the running sum of weights `l`
  (1024 × 1) — by `nextAcc`, `nextMax`, `nextSum`.  These are the body's store payloads composed,
  for any float instance.
-/
import proofs.«405542_j14559939133709_3_alg».proof.Proof.Gen.KernelIdeal.Skeleton

noncomputable section

namespace Cert.MemAttn

open Idealize.ShloMosaic Cert.KernelIdeal Cert.KernelIdeal.Gen

variable {F : FTy → Type} [FloatOps F]

/-- The running weighted sum after a step: the old one rescaled, plus the tile's weights times its values. -/
def nextAcc (q : Vec F S1024x64 .bf16) (kb : Vec F S2048x64 .f32) (vb : Vec F S2048x512 .f32)
    (acc : Vec F S1024x512 .f32) (mx : Vec F S1024x1 .f32) : Vec F S1024x512 .f32 :=
  k0_pay1 (k0_pay14 q kb mx vb acc)

/-- The running maximum after a step: the old one against the tile's row maxima. -/
def nextMax (q : Vec F S1024x64 .bf16) (kb : Vec F S2048x64 .f32) (mx : Vec F S1024x1 .f32) : Vec F S1024x1 .f32 :=
  k0_pay2 (k0_pay10 q kb mx)

/-- The running sum of weights after a step: the old one rescaled, plus the tile's weights. -/
def nextSum (q : Vec F S1024x64 .bf16) (kb : Vec F S2048x64 .f32) (mx : Vec F S1024x1 .f32) (l : Vec F S1024x1 .f32) :
    Vec F S1024x1 .f32 :=
  k0_pay13 q kb mx l

/-- The carried arrays as the first point of a sweep resets them. -/
def acc0 : Vec F S1024x512 .f32 := k0_pay6
def mx0 : Vec F S1024x1 .f32 := k0_pay7
def l0 : Vec F S1024x1 .f32 := k0_pay8

end Cert.MemAttn

end
-- ==== Proof.Pieces.lean ====
/-
  What each case of the kernel body leaves behind, as the sweep's step.

  The body has three control cases: the first point of a sweep (it resets the carried arrays, then
  steps), a middle point (it steps), and the last point of a sweep (it steps, then copies the carried
  arrays to the three output blocks).  Each lemma below reads the stores one case makes into one
  carried array or output block as `nextAcc` / `nextMax` / `nextSum` of what the case loaded.
-/
import proofs.«405542_j14559939133709_3_alg».proof.Proof.Gen.KernelIdeal.Frame
import proofs.«405542_j14559939133709_3_alg».proof.Proof.Step
import Idealize.ShloMosaic.Lib.Pipeline.Value

set_option maxRecDepth 16384

noncomputable section

namespace Cert.MemAttn

open Idealize.ShloMosaic Idealize.ShloMosaic.TcCoe Idealize.ShloMosaic.Tactic Idealize.SL.Sem
open Cert.KernelIdeal Cert.KernelIdeal.Gen

variable {F : FTy → Type} [FloatOps F]

/-- The offset vector of a whole-array access of rank two is the zero vector. -/
private theorem hz2 : (![0, 0] : Fin 2 → Nat) = fun _ => 0 := funext fun a => by fin_cases a <;> rfl

/-- The offset vector of a whole-array access of rank three is the zero vector. -/
private theorem hz3 : (![0, 0, 0] : Fin 3 → Nat) = fun _ => 0 := funext fun a => by fin_cases a <;> rfl

theorem sout0_A_0_eq (c : Dev nD) (i : grid0.Coords) (arg2 : Memref sig .tc .vmem S1024x64 .bf16) (harg2 : arg2.IsWhole) (arg3 : Memref sig .tc .vmem S2048x64 .f32) (harg3 : arg3.IsWhole) (arg4 : Memref sig .tc .vmem S2048x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x64 .bf16) (x1 : Vec F S2048x64 .f32) (x2 : Vec F S2048x512 .f32) :
    sout0_A_0 c i arg2 harg2 arg3 harg3 arg4 harg4 arg5 harg5 arg6 harg6 arg7 harg7 arg8 harg8 arg9 harg9 arg10 harg10 hc0 hc1 x0 x1 x2 = nextAcc x0 x1 x2 acc0 mx0 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1024x512) hz2]
  unfold nextAcc acc0 mx0
  simp only [View.readCov_unit_zero (S := S1024x512) _ hz2, View.readCov_unit_zero (S := S1024x1) _ hz2, View.readAt_eq_ld, harg2.read_unread, harg3.read_unread, harg4.read_unread, harg8.read_unread, harg9.read_unread, harg10.read_unread, View.ld_unit_zero (S := S1024x64) hz2, View.ld_unit_zero (S := S2048x64) hz2, View.ld_unit_zero (S := S2048x512) hz2, View.ld_unit_zero (S := S1024x512) hz2, View.ld_unit_zero (S := S1024x1) hz2]

theorem sout0_A_1_eq (c : Dev nD) (i : grid0.Coords) (arg2 : Memref sig .tc .vmem S1024x64 .bf16) (harg2 : arg2.IsWhole) (arg3 : Memref sig .tc .vmem S2048x64 .f32) (harg3 : arg3.IsWhole) (arg4 : Memref sig .tc .vmem S2048x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x64 .bf16) (x1 : Vec F S2048x64 .f32) (x2 : Vec F S2048x512 .f32) :
    sout0_A_1 c i arg2 harg2 arg3 harg3 arg4 harg4 arg5 harg5 arg6 harg6 arg7 harg7 arg8 harg8 arg9 harg9 arg10 harg10 hc0 hc1 x0 x1 x2 = nextMax x0 x1 mx0 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1024x1) hz2]
  unfold nextMax mx0
  simp only [View.readCov_unit_zero (S := S1024x512) _ hz2, View.readCov_unit_zero (S := S1024x1) _ hz2, View.readAt_eq_ld, harg2.read_unread, harg3.read_unread, harg4.read_unread, harg8.read_unread, harg9.read_unread, harg10.read_unread, View.ld_unit_zero (S := S1024x64) hz2, View.ld_unit_zero (S := S2048x64) hz2, View.ld_unit_zero (S := S2048x512) hz2, View.ld_unit_zero (S := S1024x512) hz2, View.ld_unit_zero (S := S1024x1) hz2]

theorem sout0_A_2_eq (c : Dev nD) (i : grid0.Coords) (arg2 : Memref sig .tc .vmem S1024x64 .bf16) (harg2 : arg2.IsWhole) (arg3 : Memref sig .tc .vmem S2048x64 .f32) (harg3 : arg3.IsWhole) (arg4 : Memref sig .tc .vmem S2048x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x64 .bf16) (x1 : Vec F S2048x64 .f32) (x2 : Vec F S2048x512 .f32) :
    sout0_A_2 c i arg2 harg2 arg3 harg3 arg4 harg4 arg5 harg5 arg6 harg6 arg7 harg7 arg8 harg8 arg9 harg9 arg10 harg10 hc0 hc1 x0 x1 x2 = nextSum x0 x1 mx0 l0 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1024x1) hz2]
  unfold nextSum mx0 l0
  simp only [View.readCov_unit_zero (S := S1024x512) _ hz2, View.readCov_unit_zero (S := S1024x1) _ hz2, View.readAt_eq_ld, harg2.read_unread, harg3.read_unread, harg4.read_unread, harg8.read_unread, harg9.read_unread, harg10.read_unread, View.ld_unit_zero (S := S1024x64) hz2, View.ld_unit_zero (S := S2048x64) hz2, View.ld_unit_zero (S := S2048x512) hz2, View.ld_unit_zero (S := S1024x512) hz2, View.ld_unit_zero (S := S1024x1) hz2]

theorem sout0_B_0_eq (c : Dev nD) (i : grid0.Coords) (arg2 : Memref sig .tc .vmem S1024x64 .bf16) (harg2 : arg2.IsWhole) (arg3 : Memref sig .tc .vmem S2048x64 .f32) (harg3 : arg3.IsWhole) (arg4 : Memref sig .tc .vmem S2048x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x64 .bf16) (x1 : Vec F S2048x64 .f32) (x2 : Vec F S2048x512 .f32) (xs0 : Vec F S1024x512 .f32) (xs1 : Vec F S1024x1 .f32) (xs2 : Vec F S1024x1 .f32) :
    sout0_B_0 c i arg2 harg2 arg3 harg3 arg4 harg4 arg5 harg5 arg6 harg6 arg7 harg7 arg8 harg8 arg9 harg9 arg10 harg10 hc0 hc1 x0 x1 x2 xs0 xs1 xs2 = nextAcc x0 x1 x2 xs0 xs1 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  unfold nextAcc
  simp only [View.readAt_eq_ld, harg2.read_unread, harg3.read_unread, harg4.read_unread, harg8.read_unread, harg9.read_unread, harg10.read_unread, View.ld_unit_zero (S := S1024x64) hz2, View.ld_unit_zero (S := S2048x64) hz2, View.ld_unit_zero (S := S2048x512) hz2, View.ld_unit_zero (S := S1024x512) hz2, View.ld_unit_zero (S := S1024x1) hz2]

theorem sout0_B_1_eq (c : Dev nD) (i : grid0.Coords) (arg2 : Memref sig .tc .vmem S1024x64 .bf16) (harg2 : arg2.IsWhole) (arg3 : Memref sig .tc .vmem S2048x64 .f32) (harg3 : arg3.IsWhole) (arg4 : Memref sig .tc .vmem S2048x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x64 .bf16) (x1 : Vec F S2048x64 .f32) (x2 : Vec F S2048x512 .f32) (xs0 : Vec F S1024x512 .f32) (xs1 : Vec F S1024x1 .f32) (xs2 : Vec F S1024x1 .f32) :
    sout0_B_1 c i arg2 harg2 arg3 harg3 arg4 harg4 arg5 harg5 arg6 harg6 arg7 harg7 arg8 harg8 arg9 harg9 arg10 harg10 hc0 hc1 x0 x1 x2 xs0 xs1 xs2 = nextMax x0 x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  unfold nextMax
  simp only [View.readAt_eq_ld, harg2.read_unread, harg3.read_unread, harg4.read_unread, harg8.read_unread, harg9.read_unread, harg10.read_unread, View.ld_unit_zero (S := S1024x64) hz2, View.ld_unit_zero (S := S2048x64) hz2, View.ld_unit_zero (S := S2048x512) hz2, View.ld_unit_zero (S := S1024x512) hz2, View.ld_unit_zero (S := S1024x1) hz2]

theorem sout0_B_2_eq (c : Dev nD) (i : grid0.Coords) (arg2 : Memref sig .tc .vmem S1024x64 .bf16) (harg2 : arg2.IsWhole) (arg3 : Memref sig .tc .vmem S2048x64 .f32) (harg3 : arg3.IsWhole) (arg4 : Memref sig .tc .vmem S2048x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x64 .bf16) (x1 : Vec F S2048x64 .f32) (x2 : Vec F S2048x512 .f32) (xs0 : Vec F S1024x512 .f32) (xs1 : Vec F S1024x1 .f32) (xs2 : Vec F S1024x1 .f32) :
    sout0_B_2 c i arg2 harg2 arg3 harg3 arg4 harg4 arg5 harg5 arg6 harg6 arg7 harg7 arg8 harg8 arg9 harg9 arg10 harg10 hc0 hc1 x0 x1 x2 xs0 xs1 xs2 = nextSum x0 x1 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  unfold nextSum
  simp only [View.readAt_eq_ld, harg2.read_unread, harg3.read_unread, harg4.read_unread, harg8.read_unread, harg9.read_unread, harg10.read_unread, View.ld_unit_zero (S := S1024x64) hz2, View.ld_unit_zero (S := S2048x64) hz2, View.ld_unit_zero (S := S2048x512) hz2, View.ld_unit_zero (S := S1024x512) hz2, View.ld_unit_zero (S := S1024x1) hz2]

theorem sout0_C_0_eq (c : Dev nD) (i : grid0.Coords) (arg2 : Memref sig .tc .vmem S1024x64 .bf16) (harg2 : arg2.IsWhole) (arg3 : Memref sig .tc .vmem S2048x64 .f32) (harg3 : arg3.IsWhole) (arg4 : Memref sig .tc .vmem S2048x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x64 .bf16) (x1 : Vec F S2048x64 .f32) (x2 : Vec F S2048x512 .f32) (xs0 : Vec F S1024x512 .f32) (xs1 : Vec F S1024x1 .f32) (xs2 : Vec F S1024x1 .f32) :
    sout0_C_0 c i arg2 harg2 arg3 harg3 arg4 harg4 arg5 harg5 arg6 harg6 arg7 harg7 arg8 harg8 arg9 harg9 arg10 harg10 hc0 hc1 x0 x1 x2 xs0 xs1 xs2 = nextAcc x0 x1 x2 xs0 xs1 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz2]
  unfold nextAcc
  simp only [View.readAt_eq_ld, harg2.read_unread, harg3.read_unread, harg4.read_unread, harg8.read_unread, harg9.read_unread, harg10.read_unread, View.ld_unit_zero (S := S1024x64) hz2, View.ld_unit_zero (S := S2048x64) hz2, View.ld_unit_zero (S := S2048x512) hz2, View.ld_unit_zero (S := S1024x512) hz2, View.ld_unit_zero (S := S1024x1) hz2]

theorem sout0_C_1_eq (c : Dev nD) (i : grid0.Coords) (arg2 : Memref sig .tc .vmem S1024x64 .bf16) (harg2 : arg2.IsWhole) (arg3 : Memref sig .tc .vmem S2048x64 .f32) (harg3 : arg3.IsWhole) (arg4 : Memref sig .tc .vmem S2048x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x64 .bf16) (x1 : Vec F S2048x64 .f32) (x2 : Vec F S2048x512 .f32) (xs0 : Vec F S1024x512 .f32) (xs1 : Vec F S1024x1 .f32) (xs2 : Vec F S1024x1 .f32) :
    sout0_C_1 c i arg2 harg2 arg3 harg3 arg4 harg4 arg5 harg5 arg6 harg6 arg7 harg7 arg8 harg8 arg9 harg9 arg10 harg10 hc0 hc1 x0 x1 x2 xs0 xs1 xs2 = nextMax x0 x1 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz2]
  unfold nextMax
  simp only [View.readAt_eq_ld, harg2.read_unread, harg3.read_unread, harg4.read_unread, harg8.read_unread, harg9.read_unread, harg10.read_unread, View.ld_unit_zero (S := S1024x64) hz2, View.ld_unit_zero (S := S2048x64) hz2, View.ld_unit_zero (S := S2048x512) hz2, View.ld_unit_zero (S := S1024x512) hz2, View.ld_unit_zero (S := S1024x1) hz2]

theorem sout0_C_2_eq (c : Dev nD) (i : grid0.Coords) (arg2 : Memref sig .tc .vmem S1024x64 .bf16) (harg2 : arg2.IsWhole) (arg3 : Memref sig .tc .vmem S2048x64 .f32) (harg3 : arg3.IsWhole) (arg4 : Memref sig .tc .vmem S2048x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x64 .bf16) (x1 : Vec F S2048x64 .f32) (x2 : Vec F S2048x512 .f32) (xs0 : Vec F S1024x512 .f32) (xs1 : Vec F S1024x1 .f32) (xs2 : Vec F S1024x1 .f32) :
    sout0_C_2 c i arg2 harg2 arg3 harg3 arg4 harg4 arg5 harg5 arg6 harg6 arg7 harg7 arg8 harg8 arg9 harg9 arg10 harg10 hc0 hc1 x0 x1 x2 xs0 xs1 xs2 = nextSum x0 x1 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz2]
  unfold nextSum
  simp only [View.readAt_eq_ld, harg2.read_unread, harg3.read_unread, harg4.read_unread, harg8.read_unread, harg9.read_unread, harg10.read_unread, View.ld_unit_zero (S := S1024x64) hz2, View.ld_unit_zero (S := S2048x64) hz2, View.ld_unit_zero (S := S2048x512) hz2, View.ld_unit_zero (S := S1024x512) hz2, View.ld_unit_zero (S := S1024x1) hz2]

theorem out0_C_3_eq (c : Dev nD) (i : grid0.Coords) (arg2 : Memref sig .tc .vmem S1024x64 .bf16) (harg2 : arg2.IsWhole) (arg3 : Memref sig .tc .vmem S2048x64 .f32) (harg3 : arg3.IsWhole) (arg4 : Memref sig .tc .vmem S2048x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x64 .bf16) (x1 : Vec F S2048x64 .f32) (x2 : Vec F S2048x512 .f32) (xs0 : Vec F S1024x512 .f32) (xs1 : Vec F S1024x1 .f32) (xs2 : Vec F S1024x1 .f32) :
    out0_C_3 c i arg2 harg2 arg3 harg3 arg4 harg4 arg5 harg5 arg6 harg6 arg7 harg7 arg8 harg8 arg9 harg9 arg10 harg10 hc0 hc1 x0 x1 x2 xs0 xs1 xs2 = k0_pay3 (nextAcc x0 x1 x2 xs0 xs1) := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3]
  unfold nextAcc
  simp only [View.readCov_unit_zero (S := S1024x512) _ hz2, View.readAt_eq_ld, harg2.read_unread, harg3.read_unread, harg4.read_unread, harg8.read_unread, harg9.read_unread, harg10.read_unread, View.ld_unit_zero (S := S1024x64) hz2, View.ld_unit_zero (S := S2048x64) hz2, View.ld_unit_zero (S := S2048x512) hz2, View.ld_unit_zero (S := S1024x512) hz2, View.ld_unit_zero (S := S1024x1) hz2]

theorem out0_C_4_eq (c : Dev nD) (i : grid0.Coords) (arg2 : Memref sig .tc .vmem S1024x64 .bf16) (harg2 : arg2.IsWhole) (arg3 : Memref sig .tc .vmem S2048x64 .f32) (harg3 : arg3.IsWhole) (arg4 : Memref sig .tc .vmem S2048x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x64 .bf16) (x1 : Vec F S2048x64 .f32) (x2 : Vec F S2048x512 .f32) (xs0 : Vec F S1024x512 .f32) (xs1 : Vec F S1024x1 .f32) (xs2 : Vec F S1024x1 .f32) :
    out0_C_4 c i arg2 harg2 arg3 harg3 arg4 harg4 arg5 harg5 arg6 harg6 arg7 harg7 arg8 harg8 arg9 harg9 arg10 harg10 hc0 hc1 x0 x1 x2 xs0 xs1 xs2 = k0_pay4 (nextMax x0 x1 xs1) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3]
  unfold nextMax
  simp only [View.readCov_unit_zero (S := S1024x1) _ hz2, View.readAt_eq_ld, harg2.read_unread, harg3.read_unread, harg4.read_unread, harg8.read_unread, harg9.read_unread, harg10.read_unread, View.ld_unit_zero (S := S1024x64) hz2, View.ld_unit_zero (S := S2048x64) hz2, View.ld_unit_zero (S := S2048x512) hz2, View.ld_unit_zero (S := S1024x512) hz2, View.ld_unit_zero (S := S1024x1) hz2]

theorem out0_C_5_eq (c : Dev nD) (i : grid0.Coords) (arg2 : Memref sig .tc .vmem S1024x64 .bf16) (harg2 : arg2.IsWhole) (arg3 : Memref sig .tc .vmem S2048x64 .f32) (harg3 : arg3.IsWhole) (arg4 : Memref sig .tc .vmem S2048x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x64 .bf16) (x1 : Vec F S2048x64 .f32) (x2 : Vec F S2048x512 .f32) (xs0 : Vec F S1024x512 .f32) (xs1 : Vec F S1024x1 .f32) (xs2 : Vec F S1024x1 .f32) :
    out0_C_5 c i arg2 harg2 arg3 harg3 arg4 harg4 arg5 harg5 arg6 harg6 arg7 harg7 arg8 harg8 arg9 harg9 arg10 harg10 hc0 hc1 x0 x1 x2 xs0 xs1 xs2 = k0_pay5 (nextSum x0 x1 xs1 xs2) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3]
  unfold nextSum
  simp only [View.readCov_unit_zero (S := S1024x1) _ hz2, View.readAt_eq_ld, harg2.read_unread, harg3.read_unread, harg4.read_unread, harg8.read_unread, harg9.read_unread, harg10.read_unread, View.ld_unit_zero (S := S1024x64) hz2, View.ld_unit_zero (S := S2048x64) hz2, View.ld_unit_zero (S := S2048x512) hz2, View.ld_unit_zero (S := S1024x512) hz2, View.ld_unit_zero (S := S1024x1) hz2]

end Cert.MemAttn

end
-- ==== Proof.Blocks.lean ====
/-
  The input blocks of a grid point, read off the arrays.

  The grid has 2 × 64 = 128 points; point `t` is sweep `t / 64`, step `t % 64`, and its key and
  value tiles are rows `2048 t … 2048 t + 2047` of the key and value arrays (block index
  `64 (t / 64) + t % 64 = t`).  The query block is the whole query array at every point.
-/
import proofs.«405542_j14559939133709_3_alg».proof.Proof.Gen.KernelIdeal.Frame
import Idealize.ShloMosaic.Lib.ValueIdx
import Idealize.ShloMosaic.Lib.Pipeline.Value

set_option maxRecDepth 16384

noncomputable section

namespace Cert.MemAttn

open Idealize.ShloMosaic Idealize.ShloMosaic.ValueIdx Idealize.ShloMosaic.TcCoe Idealize.SL.Sem
open Cert.KernelIdeal Cert.KernelIdeal.Gen

variable {F : FTy → Type} [FloatOps F]
variable (m : (ℓ : Loc nD τ sig) → Buf (Elt F) ℓ)

/-- The three input blocks of point `t`, at their literal vector types. -/
abbrev qblk (c : Dev nD) (t : Fin cfg0.N) : Vec F S1024x64 .bf16 := iblk m c 0 t
abbrev kblk (c : Dev nD) (t : Fin cfg0.N) : Vec F S2048x64 .f32 := iblk m c 1 t
abbrev vblk (c : Dev nD) (t : Fin cfg0.N) : Vec F S2048x512 .f32 := iblk m c 2 t

/-- The arrays the three input windows stage, at their literal types. -/
abbrev qarr (c : Dev nD) : Vec F S1024x64 .bf16 := V m c main_v18
abbrev karr (c : Dev nD) : Vec F S262144x64 .f32 := V m c main_arg7
abbrev varr (c : Dev nD) : Vec F S262144x512 .f32 := V m c main_arg8

theorem N128 : cfg0.N = 128 := N_0

/-- The block indices over the grid: the query window stays at block (0, 0); the key and value
    windows are at block (t, 0). -/
theorem idx_in : ∀ t : Fin cfg0.N,
    win0_0.index t 0 = 0 ∧ win0_0.index t 1 = 0 ∧ win0_1.index t 0 = t.val ∧ win0_1.index t 1 = 0
      ∧ win0_2.index t 0 = t.val ∧ win0_2.index t 1 = 0 :=
  (by decide +kernel : ∀ t : Fin grid0.N, _)

/-- The query block is the query array. -/
theorem qblk_eq (c : Dev nD) (t : Fin cfg0.N) : qblk m c t = qarr m c := by
  funext j
  unfold qblk iblk
  rw [View.read_apply]
  show V m c main_v18 _ = V m c main_v18 j
  congr 1
  funext a
  apply Fin.ext
  match a with
  | ⟨0, _⟩ => show win0_0.index t 0 * 1024 + 1 * (j 0).val = (j 0).val; rw [(idx_in t).1]; omega
  | ⟨1, _⟩ => show win0_0.index t 1 * 64 + 1 * (j 1).val = (j 1).val; rw [(idx_in t).2.1]; omega

/-- Row `j` of the key tile at point `t` is row `2048 t + j` of the key array. -/
theorem kblk_apply (c : Dev nD) (t : Fin cfg0.N) (j : Fin 2048) (d : Fin 64) (h : 2048 * t.val + j.val < 262144) :
    kblk m c t (ix2 j d) = karr m c (ix2 ⟨2048 * t.val + j.val, h⟩ d) := by
  unfold kblk iblk
  rw [View.read_apply]
  show V m c main_arg7 _ = V m c main_arg7 _
  congr 1
  funext a
  apply Fin.ext
  match a with
  | ⟨0, _⟩ => show win0_1.index t 0 * 2048 + 1 * j.val = 2048 * t.val + j.val; rw [(idx_in t).2.2.1]; omega
  | ⟨1, _⟩ => show win0_1.index t 1 * 64 + 1 * d.val = d.val; rw [(idx_in t).2.2.2.1]; omega

/-- Row `j` of the value tile at point `t` is row `2048 t + j` of the value array. -/
theorem vblk_apply (c : Dev nD) (t : Fin cfg0.N) (j : Fin 2048) (e : Fin 512) (h : 2048 * t.val + j.val < 262144) :
    vblk m c t (ix2 j e) = varr m c (ix2 ⟨2048 * t.val + j.val, h⟩ e) := by
  unfold vblk iblk
  rw [View.read_apply]
  show V m c main_arg8 _ = V m c main_arg8 _
  congr 1
  funext a
  apply Fin.ext
  match a with
  | ⟨0, _⟩ => show win0_2.index t 0 * 2048 + 1 * j.val = 2048 * t.val + j.val; rw [(idx_in t).2.2.2.2.1]; omega
  | ⟨1, _⟩ => show win0_2.index t 1 * 512 + 1 * e.val = e.val; rw [(idx_in t).2.2.2.2.2]; omega

end Cert.MemAttn

end
-- ==== Proof.Sweep.lean ====
/-
  The carried arrays point by point.

  After the body at grid point `t` the three carried arrays hold: at the first point of a sweep
  (`t % 64 = 0`) one step from the reset values; at every other point one step from what the
  point before left.  At the last point of a sweep (`t % 64 = 63`) the three output blocks hold the
  carried arrays (with a leading unit axis).
-/
import proofs.«405542_j14559939133709_3_alg».proof.Proof.Pieces
import proofs.«405542_j14559939133709_3_alg».proof.Proof.Blocks

set_option maxRecDepth 16384

noncomputable section

namespace Cert.MemAttn

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The running weighted sum, maximum and sum of weights after the body at position `n`. -/
abbrev accAt (c : Dev nD) (n : ℕ) (h : n < cfg0.N) : Vec F S1024x512 .f32 := (outsAt0 m c n h).2.2.2.1
abbrev mxAt (c : Dev nD) (n : ℕ) (h : n < cfg0.N) : Vec F S1024x1 .f32 := (outsAt0 m c n h).2.2.2.2.1
abbrev lAt (c : Dev nD) (n : ℕ) (h : n < cfg0.N) : Vec F S1024x1 .f32 := (outsAt0 m c n h).2.2.2.2.2

/-- At the first point of a sweep: one step from the reset values. -/
theorem accAt_first (c : Dev nD) (t : Fin cfg0.N) (h0 : t.val % 64 = 0) :
    accAt m c t.val t.isLt = nextAcc (qblk m c t) (kblk m c t) (vblk m c t) acc0 mx0 := by
  have h1 : ¬t.val % 64 = 63 := by omega
  show (outsAt0 m c t.val t.isLt).2.2.2.1 = _
  rw [outsAt0_A m c t h0 h1]
  dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

/-- At any other point: one step from what the point before left. -/
theorem accAt_next (c : Dev nD) (t : Fin cfg0.N) (h0 : ¬t.val % 64 = 0) :
    accAt m c t.val t.isLt = nextAcc (qblk m c t) (kblk m c t) (vblk m c t) (accAt m c (t.val - 1) (Nat.lt_of_le_of_lt (Nat.sub_le _ _) t.isLt)) (mxAt m c (t.val - 1) (Nat.lt_of_le_of_lt (Nat.sub_le _ _) t.isLt)) := by
  show (outsAt0 m c t.val t.isLt).2.2.2.1 = _
  by_cases h1 : t.val % 64 = 63
  · rw [outsAt0_C m c t h0 h1]
    dsimp only
    exact sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [outsAt0_B m c t h0 h1]
    dsimp only
    exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- At the first point of a sweep: one step from the reset values. -/
theorem mxAt_first (c : Dev nD) (t : Fin cfg0.N) (h0 : t.val % 64 = 0) :
    mxAt m c t.val t.isLt = nextMax (qblk m c t) (kblk m c t) mx0 := by
  have h1 : ¬t.val % 64 = 63 := by omega
  show (outsAt0 m c t.val t.isLt).2.2.2.2.1 = _
  rw [outsAt0_A m c t h0 h1]
  dsimp only
  exact sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

/-- At any other point: one step from what the point before left. -/
theorem mxAt_next (c : Dev nD) (t : Fin cfg0.N) (h0 : ¬t.val % 64 = 0) :
    mxAt m c t.val t.isLt = nextMax (qblk m c t) (kblk m c t) (mxAt m c (t.val - 1) (Nat.lt_of_le_of_lt (Nat.sub_le _ _) t.isLt)) := by
  show (outsAt0 m c t.val t.isLt).2.2.2.2.1 = _
  by_cases h1 : t.val % 64 = 63
  · rw [outsAt0_C m c t h0 h1]
    dsimp only
    exact sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [outsAt0_B m c t h0 h1]
    dsimp only
    exact sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- At the first point of a sweep: one step from the reset values. -/
theorem lAt_first (c : Dev nD) (t : Fin cfg0.N) (h0 : t.val % 64 = 0) :
    lAt m c t.val t.isLt = nextSum (qblk m c t) (kblk m c t) mx0 l0 := by
  have h1 : ¬t.val % 64 = 63 := by omega
  show (outsAt0 m c t.val t.isLt).2.2.2.2.2 = _
  rw [outsAt0_A m c t h0 h1]
  dsimp only
  exact sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

/-- At any other point: one step from what the point before left. -/
theorem lAt_next (c : Dev nD) (t : Fin cfg0.N) (h0 : ¬t.val % 64 = 0) :
    lAt m c t.val t.isLt = nextSum (qblk m c t) (kblk m c t) (mxAt m c (t.val - 1) (Nat.lt_of_le_of_lt (Nat.sub_le _ _) t.isLt)) (lAt m c (t.val - 1) (Nat.lt_of_le_of_lt (Nat.sub_le _ _) t.isLt)) := by
  show (outsAt0 m c t.val t.isLt).2.2.2.2.2 = _
  by_cases h1 : t.val % 64 = 63
  · rw [outsAt0_C m c t h0 h1]
    dsimp only
    exact sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [outsAt0_B m c t h0 h1]
    dsimp only
    exact sout0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- At the last point of a sweep output block 3 holds the carried array. -/
theorem out3_last (c : Dev nD) (t : Fin cfg0.N) (h1 : t.val % 64 = 63) :
    (outsAt0 m c t.val t.isLt).1 = k0_pay3 (accAt m c t.val t.isLt) := by
  have h0 : ¬t.val % 64 = 0 := by omega
  show (outsAt0 m c t.val t.isLt).1 = k0_pay3 (outsAt0 m c t.val t.isLt).2.2.2.1
  rw [outsAt0_C m c t h0 h1]
  dsimp only
  exact (out0_C_3_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
    (congrArg k0_pay3 (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm)

/-- At the last point of a sweep output block 4 holds the carried array. -/
theorem out4_last (c : Dev nD) (t : Fin cfg0.N) (h1 : t.val % 64 = 63) :
    (outsAt0 m c t.val t.isLt).2.1 = k0_pay4 (mxAt m c t.val t.isLt) := by
  have h0 : ¬t.val % 64 = 0 := by omega
  show (outsAt0 m c t.val t.isLt).2.1 = k0_pay4 (outsAt0 m c t.val t.isLt).2.2.2.2.1
  rw [outsAt0_C m c t h0 h1]
  dsimp only
  exact (out0_C_4_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
    (congrArg k0_pay4 (sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm)

/-- At the last point of a sweep output block 5 holds the carried array. -/
theorem out5_last (c : Dev nD) (t : Fin cfg0.N) (h1 : t.val % 64 = 63) :
    (outsAt0 m c t.val t.isLt).2.2.1 = k0_pay5 (lAt m c t.val t.isLt) := by
  have h0 : ¬t.val % 64 = 0 := by omega
  show (outsAt0 m c t.val t.isLt).2.2.1 = k0_pay5 (outsAt0 m c t.val t.isLt).2.2.2.2.2
  rw [outsAt0_C m c t h0 h1]
  dsimp only
  exact (out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
    (congrArg k0_pay5 (sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm)

end Cert.MemAttn

end
-- ==== Proof.OnlineSoftmax.lean ====
/-
  The algebra of the streaming softmax, on the extended reals.

  A row of attention over a memory of `N` slots with real scores `s j` and real values `v j`
  is `(∑ j, exp (s j) * v j) / (∑ j, exp (s j))`.  It can be computed slot block by slot block while
  keeping only three numbers: a reference level `μ`, the sum `∑ exp (s j - μ)` and the weighted sum
  `∑ exp (s j - μ) * v j` over the slots seen so far (`Rep`).  Taking in a further block of `T`
  slots replaces `μ` by `max μ (the block's maximum)` and rescales the two sums by
  `exp (μ - μ')` (`stepM`, `stepL`, `stepA`; `rep_step`).  Two such triples over disjoint halves of the
  memory merge in the same way, and the quotient of the merged sums is the row of attention
  (`combine`), whatever reference levels were used: `exp (s j - μ) = exp (s j) * exp (-μ)` and the
  common factor cancels.  The directly normalised form, each weight divided by the total first,
  is the same number (`direct`).

  Everything is stated on the extended reals with the operations the programs use
  (`Ideal.exp`, `Ideal.div`, `max`, `+`, `*`, `-`); the inputs are images of real numbers, which is what
  makes the rescaling laws valid, and the start of a sweep is the triple `(⊥, 0, 0)`, for which the
  rescaling factor is `exp ⊥ = 0`.
-/
import Idealize.ShloMosaic.PureOps.Ideal
import Mathlib.Analysis.SpecialFunctions.Exp
import Mathlib.Data.EReal.Operations
import Mathlib.Data.EReal.Inv
import Mathlib.Data.Finset.Fold

noncomputable section

namespace Cert.OnlineSoftmax

open Idealize.ShloMosaic
open Finset

/-- The image of a finite sum of reals is the sum of the images. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The image of the larger of two reals is the larger of the images. -/
theorem coe_max (a b : ℝ) : ((max a b : ℝ) : EReal) = max (a : EReal) (b : EReal) :=
  EReal.coe_strictMono.monotone.map_max

variable {T : ℕ}

/-- The new reference level: the old one against the block's maximum (a fold of `max` from `⊥`). -/
def stepM (m : EReal) (σ : Fin T → EReal) : EReal :=
  max m ((Finset.univ : Finset (Fin T)).fold max ⊥ σ)

/-- The new sum of weights: the old one rescaled, plus the block's weights at the new level. -/
def stepL (m l : EReal) (σ : Fin T → EReal) : EReal :=
  Ideal.exp (m - stepM m σ) * l + ∑ j : Fin T, Ideal.exp (σ j - stepM m σ)

/-- The new weighted sum: the old one rescaled, plus the block's weighted values at the new level. -/
def stepA (m a : EReal) (σ ν : Fin T → EReal) : EReal :=
  Ideal.exp (m - stepM m σ) * a + ∑ j : Fin T, Ideal.exp (σ j - stepM m σ) * ν j

/-- The maximum of a nonempty block of reals, folded from `⊥`, is a real. -/
theorem fold_max_real (hT : 0 < T) (s : Fin T → ℝ) :
    ∃ r : ℝ, (Finset.univ : Finset (Fin T)).fold max (⊥ : EReal) (fun j => ((s j : ℝ) : EReal)) = (r : EReal) := by
  have h1 : (Finset.univ : Finset (Fin T)).fold max (⊥ : EReal) (fun j => ((s j : ℝ) : EReal)) ≠ ⊤ :=
    ne_of_lt ((Finset.fold_max_lt _).mpr ⟨bot_lt_top, fun j _ => EReal.coe_lt_top _⟩)
  have h2 : (Finset.univ : Finset (Fin T)).fold max (⊥ : EReal) (fun j => ((s j : ℝ) : EReal)) ≠ ⊥ := by
    have h : ((s ⟨0, hT⟩ : ℝ) : EReal) ≤ (Finset.univ : Finset (Fin T)).fold max (⊥ : EReal) (fun j => ((s j : ℝ) : EReal)) :=
      (Finset.le_fold_max _).mpr (Or.inr ⟨⟨0, hT⟩, Finset.mem_univ _, le_rfl⟩)
    exact ne_of_gt (lt_of_lt_of_le (EReal.bot_lt_coe _) h)
  exact ⟨_, (EReal.coe_toReal h1 h2).symm⟩

/-- The state after `n` slots: a real level `μ`, and the two sums over those slots relative to it. -/
def Rep (s v : ℕ → ℝ) (n : ℕ) (m l a : EReal) : Prop :=
  ∃ μ : ℝ, m = (μ : EReal) ∧ l = ((∑ j ∈ range n, Real.exp (s j - μ) : ℝ) : EReal)
    ∧ a = ((∑ j ∈ range n, Real.exp (s j - μ) * v j : ℝ) : EReal)

/-- The state before any slot. -/
def Start (m l a : EReal) : Prop := m = ⊥ ∧ l = 0 ∧ a = 0

/-- Rescaling a sum of weights from level `μ` to level `μ'`. -/
theorem rescale (s : ℕ → ℝ) (w : ℕ → ℝ) (n : ℕ) (μ μ' : ℝ) :
    Real.exp (μ - μ') * ∑ j ∈ range n, Real.exp (s j - μ) * w j = ∑ j ∈ range n, Real.exp (s j - μ') * w j := by
  rw [Finset.mul_sum]
  refine Finset.sum_congr rfl fun j _ => ?_
  rw [← mul_assoc, ← Real.exp_add]
  congr 2; ring

/-- The heart of one step, with the old state already reduced to reals `e` (the rescaling factor),
    `L`, `A` whose rescaled values are the sums over the first `n` slots at the new level. -/
theorem step_core (s v : ℕ → ℝ) (n : ℕ) (μ' e L A : ℝ)
    (hL : e * L = ∑ j ∈ range n, Real.exp (s j - μ'))
    (hA : e * A = ∑ j ∈ range n, Real.exp (s j - μ') * v j)
    (σ ν : Fin T → EReal) (hσ : ∀ j, σ j = ((s (n + j.val) : ℝ) : EReal)) (hν : ∀ j, ν j = ((v (n + j.val) : ℝ) : EReal)) :
    (e : EReal) * (L : EReal) + ∑ j : Fin T, Ideal.exp (σ j - (μ' : EReal))
        = ((∑ j ∈ range (n + T), Real.exp (s j - μ') : ℝ) : EReal)
    ∧ (e : EReal) * (A : EReal) + ∑ j : Fin T, Ideal.exp (σ j - (μ' : EReal)) * ν j
        = ((∑ j ∈ range (n + T), Real.exp (s j - μ') * v j : ℝ) : EReal) := by
  constructor
  · rw [Finset.sum_range_add, EReal.coe_add, ← hL, EReal.coe_mul, Finset.sum_range, coe_sum]
    congr 1
    refine Finset.sum_congr rfl fun j _ => ?_
    rw [hσ j, ← EReal.coe_sub, Ideal.exp_coe]
  · rw [Finset.sum_range_add, EReal.coe_add, ← hA, EReal.coe_mul, Finset.sum_range, coe_sum]
    congr 1
    refine Finset.sum_congr rfl fun j _ => ?_
    rw [hσ j, hν j, ← EReal.coe_sub, Ideal.exp_coe, EReal.coe_mul]

/-- One step: from the state after `n` slots (or the start, `n = 0`) to the state after `n + T`. -/
theorem rep_step (s v : ℕ → ℝ) (n : ℕ) (hT : 0 < T) {m l a : EReal}
    (h : Rep s v n m l a ∨ (n = 0 ∧ Start m l a))
    (σ ν : Fin T → EReal) (hσ : ∀ j, σ j = ((s (n + j.val) : ℝ) : EReal)) (hν : ∀ j, ν j = ((v (n + j.val) : ℝ) : EReal)) :
    Rep s v (n + T) (stepM m σ) (stepL m l σ) (stepA m a σ ν) := by
  obtain ⟨μc, hμc⟩ := fold_max_real hT (fun j => s (n + j.val))
  have hσ' : σ = fun j => ((s (n + j.val) : ℝ) : EReal) := funext hσ
  rcases h with ⟨μ, rfl, rfl, rfl⟩ | ⟨rfl, rfl, rfl, rfl⟩
  · have hM : stepM (μ : EReal) σ = ((max μ μc : ℝ) : EReal) := by
      unfold stepM; rw [hσ', hμc, coe_max]
    refine ⟨max μ μc, hM, ?_, ?_⟩
    · unfold stepL; rw [hM, ← EReal.coe_sub, Ideal.exp_coe]
      exact (step_core s v n (max μ μc) _ _ _ (by simpa using rescale s (fun _ => 1) n μ (max μ μc)) (rescale s v n μ (max μ μc)) σ ν hσ hν).1
    · unfold stepA; rw [hM, ← EReal.coe_sub, Ideal.exp_coe]
      exact (step_core s v n (max μ μc) _ _ _ (by simpa using rescale s (fun _ => 1) n μ (max μ μc)) (rescale s v n μ (max μ μc)) σ ν hσ hν).2
  · have hM : stepM (⊥ : EReal) σ = ((μc : ℝ) : EReal) := by
      unfold stepM; rw [hσ', hμc, max_bot_left]
    have he : Ideal.exp ((⊥ : EReal) - (μc : EReal)) = ((0 : ℝ) : EReal) := by
      rw [EReal.bot_sub, Ideal.exp_bot, EReal.coe_zero]
    refine ⟨μc, hM, ?_, ?_⟩
    · unfold stepL; rw [hM, he, ← EReal.coe_zero]
      exact (step_core s v 0 μc 0 0 0 (by simp) (by simp) σ ν hσ hν).1
    · unfold stepA; rw [hM, he, ← EReal.coe_zero]
      exact (step_core s v 0 μc 0 0 0 (by simp) (by simp) σ ν hσ hν).2

/-- The weights at any level are the plain weights times a common positive factor. -/
theorem weights_factor (s w : ℕ → ℝ) (n : ℕ) (μ : ℝ) :
    ∑ j ∈ range n, Real.exp (s j - μ) * w j = Real.exp (-μ) * ∑ j ∈ range n, Real.exp (s j) * w j := by
  rw [Finset.mul_sum]
  refine Finset.sum_congr rfl fun j _ => ?_
  rw [← mul_assoc, ← Real.exp_add]
  congr 2; ring

theorem sum_exp_pos (s : ℕ → ℝ) {n : ℕ} (hn : 0 < n) : 0 < ∑ j ∈ range n, Real.exp (s j) :=
  Finset.sum_pos (fun j _ => Real.exp_pos _) ⟨0, Finset.mem_range.mpr hn⟩

/-- Merging two halves.  With `M = max m₀ m₁` and the factors `exp (m₀ - M)`, `exp (m₁ - M)`, the
    quotient of the merged weighted sum by the merged sum of weights is the attention row over both
    halves. -/
theorem combine (s0 v0 s1 v1 : ℕ → ℝ) (n0 n1 : ℕ) (h0 : 0 < n0) {m0 l0 a0 m1 l1 a1 : EReal}
    (r0 : Rep s0 v0 n0 m0 l0 a0) (r1 : Rep s1 v1 n1 m1 l1 a1) :
    Ideal.div (Ideal.exp (m0 - max m0 m1) * a0 + Ideal.exp (m1 - max m0 m1) * a1)
        (Ideal.exp (m0 - max m0 m1) * l0 + Ideal.exp (m1 - max m0 m1) * l1)
      = (((∑ j ∈ range n0, Real.exp (s0 j) * v0 j + ∑ j ∈ range n1, Real.exp (s1 j) * v1 j)
          / (∑ j ∈ range n0, Real.exp (s0 j) + ∑ j ∈ range n1, Real.exp (s1 j)) : ℝ) : EReal) := by
  obtain ⟨μ0, rfl, rfl, rfl⟩ := r0
  obtain ⟨μ1, rfl, rfl, rfl⟩ := r1
  set M := max μ0 μ1 with hMdef
  have hpos : 0 < ∑ j ∈ range n0, Real.exp (s0 j) + ∑ j ∈ range n1, Real.exp (s1 j) :=
    add_pos_of_pos_of_nonneg (sum_exp_pos s0 h0) (Finset.sum_nonneg fun j _ => (Real.exp_pos _).le)
  have hl0 := rescale s0 (fun _ => 1) n0 μ0 M
  have hl1 := rescale s1 (fun _ => 1) n1 μ1 M
  have ha0 := rescale s0 v0 n0 μ0 M
  have ha1 := rescale s1 v1 n1 μ1 M
  simp only [mul_one] at hl0 hl1
  rw [← coe_max, ← hMdef, ← EReal.coe_sub, ← EReal.coe_sub, Ideal.exp_coe, Ideal.exp_coe,
    ← EReal.coe_mul, ← EReal.coe_mul, ← EReal.coe_mul, ← EReal.coe_mul, ← EReal.coe_add, ← EReal.coe_add,
    ha0, ha1, hl0, hl1]
  have hw0 := weights_factor s0 (fun _ => 1) n0 M
  have hw1 := weights_factor s1 (fun _ => 1) n1 M
  simp only [mul_one] at hw0 hw1
  rw [weights_factor s0 v0 n0 M, weights_factor s1 v1 n1 M, hw0, hw1, ← mul_add, ← mul_add]
  have hne : Real.exp (-M) * (∑ j ∈ range n0, Real.exp (s0 j) + ∑ j ∈ range n1, Real.exp (s1 j)) ≠ 0 :=
    (mul_pos (Real.exp_pos _) hpos).ne'
  rw [Ideal.div_coe hne, ← EReal.coe_mul]
  congr 1
  have hE : Real.exp (-M) ≠ 0 := (Real.exp_pos _).ne'
  field_simp

/-- The directly normalised form: each slot's weight at level `μ` divided by the total of the
    weights at that level (with the sum's initial value `z = 0` in front), times the slot's value,
    summed. -/
theorem direct (S V : ℕ → ℝ) (N : ℕ) (hN : 0 < N) (μ : ℝ) (z : EReal) (hz : z = 0) :
    ∑ j : Fin N, Ideal.div (Ideal.exp (((S j.val : ℝ) : EReal) - (μ : EReal)))
        (z + ∑ k : Fin N, Ideal.exp (((S k.val : ℝ) : EReal) - (μ : EReal))) * ((V j.val : ℝ) : EReal)
      = (((∑ j ∈ range N, Real.exp (S j) * V j) / (∑ j ∈ range N, Real.exp (S j)) : ℝ) : EReal) := by
  subst hz
  have hZ : (0 : EReal) + ∑ k : Fin N, Ideal.exp (((S k.val : ℝ) : EReal) - (μ : EReal))
      = ((Real.exp (-μ) * ∑ j ∈ range N, Real.exp (S j) : ℝ) : EReal) := by
    have hw := weights_factor S (fun _ => 1) N μ
    simp only [mul_one] at hw
    rw [zero_add, ← hw, Finset.sum_range, coe_sum]
    refine Finset.sum_congr rfl fun k _ => ?_
    rw [← EReal.coe_sub, Ideal.exp_coe]
  have hne : Real.exp (-μ) * ∑ j ∈ range N, Real.exp (S j) ≠ 0 :=
    (mul_pos (Real.exp_pos _) (sum_exp_pos S hN)).ne'
  rw [hZ, Finset.sum_range (fun j => Real.exp (S j) * V j), Finset.sum_div, coe_sum]
  refine Finset.sum_congr rfl fun j _ => ?_
  rw [Ideal.div_coe hne, ← EReal.coe_sub, Ideal.exp_coe, ← EReal.coe_mul, ← EReal.coe_mul]
  congr 1
  have hE : Real.exp (-μ) ≠ 0 := (Real.exp_pos _).ne'
  have hS : ∑ j ∈ range N, Real.exp (S j) ≠ 0 := (sum_exp_pos S hN).ne'
  rw [show S j.val - μ = S j.val + -μ by ring, Real.exp_add]
  field_simp

end Cert.OnlineSoftmax

end
-- ==== Proof.Spec.lean ====
/-
  What both programs compute, in real numbers.

  The query network's output is a real matrix `q` of 1024 rows and 64 columns; the memory has
  262144 slots, slot `n` with a key row `k n` of 64 reals and a value row `v n` of 512 reals.  The score
  of query row `b` against slot `n` is the inner product `∑ d, q b d * k n d`, and the attention row is
  the softmax-weighted mean of the value rows,
  `attn b c = (∑ n, exp (score b n) * v n c) / (∑ n, exp (score b n))`.
  `Agree` says that three arrays of extended reals are the images of such real data, entry by entry;
  arrays all of whose entries are real numbers always are (`exists_agree`).
-/
import proofs.«405542_j14559939133709_3_alg».proof.Proof.OnlineSoftmax
import Idealize.ShloMosaic.Lib.ValueIdx

noncomputable section

namespace Cert.MemAttn

open Idealize.ShloMosaic Idealize.ShloMosaic.ValueIdx
open Finset

/-- The real data: the query matrix, and the key and value rows by slot number (slots past the
    memory's end are never consulted). -/
structure RealData where
  q : Fin 1024 → Fin 64 → ℝ
  k : ℕ → Fin 64 → ℝ
  v : ℕ → Fin 512 → ℝ

/-- The score of query row `b` against memory slot `n`. -/
def RealData.score (D : RealData) (b : Fin 1024) (n : ℕ) : ℝ := ∑ d : Fin 64, D.q b d * D.k n d

/-- The attention row: the softmax of the scores over all 262144 slots, applied to the values. -/
def RealData.attn (D : RealData) (b : Fin 1024) (c : Fin 512) : ℝ :=
  (∑ n ∈ range 262144, Real.exp (D.score b n) * D.v n c) / (∑ n ∈ range 262144, Real.exp (D.score b n))

abbrev Sq : Shape := ⟨2, ![1024, 64]⟩
abbrev Sk : Shape := ⟨2, ![262144, 64]⟩
abbrev Sv : Shape := ⟨2, ![262144, 512]⟩

/-- Three arrays of extended reals are the images of the real data. -/
def Agree (D : RealData) (Q : Sq.Idx → EReal) (K : Sk.Idx → EReal) (V : Sv.Idx → EReal) : Prop :=
  (∀ (b : Fin 1024) (d : Fin 64), Q (ix2 b d) = ((D.q b d : ℝ) : EReal))
  ∧ (∀ (n : Fin 262144) (d : Fin 64), K (ix2 n d) = ((D.k n.val d : ℝ) : EReal))
  ∧ (∀ (n : Fin 262144) (c : Fin 512), V (ix2 n c) = ((D.v n.val c : ℝ) : EReal))

/-- Arrays whose entries are all real numbers are the images of some real data. -/
theorem exists_agree (Q : Sq.Idx → EReal) (K : Sk.Idx → EReal) (V : Sv.Idx → EReal)
    (hQ : ∀ i, ∃ r : ℝ, Q i = (r : EReal)) (hK : ∀ i, ∃ r : ℝ, K i = (r : EReal)) (hV : ∀ i, ∃ r : ℝ, V i = (r : EReal)) :
    ∃ D : RealData, Agree D Q K V := by
  choose fq hfq using hQ
  choose fk hfk using hK
  choose fv hfv using hV
  refine ⟨⟨fun b d => fq (ix2 b d),
    fun n d => if h : n < 262144 then fk (ix2 ⟨n, h⟩ d) else 0,
    fun n c => if h : n < 262144 then fv (ix2 ⟨n, h⟩ c) else 0⟩, fun b d => hfq _, fun n d => ?_, fun n c => ?_⟩
  · show K (ix2 n d) = ((if h : n.val < 262144 then fk (ix2 ⟨n.val, h⟩ d) else 0 : ℝ) : EReal)
    rw [dif_pos n.isLt]; exact hfk _
  · show V (ix2 n c) = ((if h : n.val < 262144 then fv (ix2 ⟨n.val, h⟩ c) else 0 : ℝ) : EReal)
    rw [dif_pos n.isLt]; exact hfv _

end Cert.MemAttn

end
-- ==== Proof.StepAt.lean ====
/-
  The sweep's step read at one row (and one column), on the extended reals.

  For query row `b` the tile's scores are `tileScore q kb b j = ∑ d, q b d * kb j d` (the body's first
  matrix product, rows of the query block against rows of the key tile).  The new maximum at row `b`
  is the old one against the fold of `max` over those scores; the new sum of weights is the old one
  times `exp (old max - new max)` plus `∑ j, exp (score j - new max)`; the new weighted sum at
  `(b, c)` is the old one times the same factor plus `∑ j, exp (score j - new max) * vb j c` (the
  body's second matrix product).  Changes of float format are the identity here.
-/
import proofs.«405542_j14559939133709_3_alg».proof.Proof.Step
import proofs.«405542_j14559939133709_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.MemAttn

open Idealize.ShloMosaic Idealize.ShloMosaic.ValueIdx Cert.KernelIdeal Cert.KernelIdeal.Gen Cert.OnlineSoftmax

/-- The scores of query row `b` against the 2048 key rows of a tile. -/
def tileScore (q : Vec Ideal S1024x64 .bf16) (kb : Vec Ideal S2048x64 .f32) (b : Fin 1024) (j : Fin 2048) : EReal :=
  ∑ d : Fin 64, q (ix2 b d) * kb (ix2 j d)

/-! ## The first product: rows of the query block against rows of the key tile -/

private theorem lhs_score_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
private theorem lhs_score_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
private theorem rhs_score_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
private theorem rhs_score_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- The first product at `(b, j)` is the score of query row `b` against key row `j`. -/
private theorem pay9_apply (q : Vec Ideal S1024x64 .bf16) (kb : Vec Ideal S2048x64 .f32) (b : Fin 1024) (j : Fin 2048) :
    k0_pay9 (F := Ideal) q kb (ix2 b j) = tileScore q kb b j := by
  unfold k0_pay9 tileScore
  rw [shapeCast_self]
  refine (Ideal.matmul_constant_zero_apply dot_S1024x64_S2048x64_S1024x2048_1_1_0_0_n_n none _ _ _).trans ?_
  rw [← Equiv.sum_comp (contrEquiv1 dot_S1024x64_S2048x64_S1024x2048_1_1_0_0_n_n 64 rfl rfl).symm]
  refine Finset.sum_congr rfl fun k _ => ?_
  have hk := contrEquiv1_symm_val dot_S1024x64_S2048x64_S1024x2048_1_1_0_0_n_n 64 rfl rfl k
  have el : dot_S1024x64_S2048x64_S1024x2048_1_1_0_0_n_n.lhsIdx (ix2 b j) ((contrEquiv1 dot_S1024x64_S2048x64_S1024x2048_1_1_0_0_n_n 64 rfl rfl).symm k) = ix2 b k := funext fun a => Fin.ext (by
    match a with
    | ⟨0, _⟩ => exact lhs_score_0 _ _
    | ⟨1, _⟩ => exact (lhs_score_1 _ _).trans hk)
  have er : dot_S1024x64_S2048x64_S1024x2048_1_1_0_0_n_n.rhsIdx (ix2 b j) ((contrEquiv1 dot_S1024x64_S2048x64_S1024x2048_1_1_0_0_n_n 64 rfl rfl).symm k) = ix2 j k := funext fun a => Fin.ext (by
    match a with
    | ⟨0, _⟩ => exact rhs_score_0 _ _
    | ⟨1, _⟩ => exact (rhs_score_1 _ _).trans hk)
  rw [el, er]
  rfl

/-! ## Column forms of the layout operations -/

section Column
variable {α : Type}

/-- An `[a]` array cast to `[a, 1]` reads, at `(i, u)`, the operand at `i`, whatever the unit coordinate `u`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two lane reductions of a `1024 × 2048` tile, read at a row -/

/-- The row maximum: the fold of `max` from `⊥` over the row's 2048 entries. -/
private theorem rowMax_apply (src : FVec Ideal S1024x2048 .f32) (b : Fin 1024) :
    multiReduction (F := Ideal) .maximumf [1] S1024 src 0xFF800000#32 reduces_S1024x2048_S1024 (.inl rfl) rfl (ix1 b)
      = (Finset.univ : Finset (Fin 2048)).fold max ⊥ (fun j => src (ix2 b j)) := by
  refine (Ideal.multiReduction_maximumf_single src 0xFF800000#32 reduces_S1024x2048_S1024 (.inl rfl) rfl (ix1 b)).trans ?_
  have h1 : FloatOps.ofBits (F := Ideal) .f32 0xFF800000#32 = (⊥ : EReal) := by
    show Ideal.ofBits .f32 0xFF800000#32 = ⊥
    simp [Ideal.ofBits, Ideal.ieee]
  have h2 : (src ∘ reduces_S1024x2048_S1024.lift (ix1 b)) = fun j : Fin 2048 => src (ix2 b j) :=
    funext fun k => congrArg src (funext fun a => Fin.ext (by
      match a with
      | ⟨0, _⟩ => rfl
      | ⟨1, _⟩ => rfl))
  rw [h1, h2]
  rfl

/-- The row sum: the sum of the row's 2048 entries. -/
private theorem rowSum_apply (src : FVec Ideal S1024x2048 .f32) (b : Fin 1024) :
    multiReduction (F := Ideal) .add [1] S1024 src 0x00000000#32 reduces_S1024x2048_S1024 (.inl rfl) rfl (ix1 b)
      = ∑ j : Fin 2048, src (ix2 b j) := by
  refine (Ideal.multiReduction_add_single src 0x00000000#32 reduces_S1024x2048_S1024 (.inl rfl) rfl (ix1 b)).trans ?_
  exact Finset.sum_congr rfl fun k _ => congrArg src (funext fun a => Fin.ext (by
    match a with
    | ⟨0, _⟩ => rfl
    | ⟨1, _⟩ => rfl))

/-! ## The body's intermediate values at a row -/

/-- The new maximum at row `b`: the old one against the row maximum of the scores. -/
private theorem pay10_apply (q : Vec Ideal S1024x64 .bf16) (kb : Vec Ideal S2048x64 .f32) (mx : Vec Ideal S1024x1 .f32) (b : Fin 1024) :
    k0_pay10 (F := Ideal) q kb mx (ix2 b (0 : Fin 1)) = stepM (mx (ix2 b (0 : Fin 1))) (tileScore q kb b) := by
  unfold k0_pay10 stepM
  refine (maximumf_apply _ _ _).trans ?_
  refine congrArg (max (mx (ix2 b (0 : Fin 1)))) ?_
  refine (shapeCast_a_a1_apply _ _ b 0).trans ?_
  refine (rowMax_apply _ b).trans ?_
  exact congrArg (Finset.univ.fold max ⊥) (funext fun j => pay9_apply q kb b j)

/-- The rescaling factor at row `b`: `exp (old maximum - new maximum)`. -/
private theorem pay11_apply (q : Vec Ideal S1024x64 .bf16) (kb : Vec Ideal S2048x64 .f32) (mx : Vec Ideal S1024x1 .f32) (b : Fin 1024) :
    k0_pay11 (F := Ideal) q kb mx (ix2 b (0 : Fin 1))
      = Ideal.exp (mx (ix2 b (0 : Fin 1)) - stepM (mx (ix2 b (0 : Fin 1))) (tileScore q kb b)) := by
  unfold k0_pay11
  show Ideal.exp (mx (ix2 b (0 : Fin 1)) - k0_pay10 (F := Ideal) q kb mx (ix2 b (0 : Fin 1))) = _
  rw [pay10_apply]

/-- The weight of key row `j` for query row `b`: `exp (score - new maximum)`. -/
private theorem pay12_apply (q : Vec Ideal S1024x64 .bf16) (kb : Vec Ideal S2048x64 .f32) (mx : Vec Ideal S1024x1 .f32) (b : Fin 1024) (j : Fin 2048) :
    k0_pay12 (F := Ideal) q kb mx (ix2 b j)
      = Ideal.exp (tileScore q kb b j - stepM (mx (ix2 b (0 : Fin 1))) (tileScore q kb b)) := by
  unfold k0_pay12
  show Ideal.exp (k0_pay9 (F := Ideal) q kb (ix2 b j)
    - broadcastTo S1024x2048 (k0_pay10 (F := Ideal) q kb mx) broadcasts_S1024x1_S1024x2048 (ix2 b j)) = _
  rw [pay9_apply, broadcastTo_a1_ab_apply, pay10_apply]

/-! ## The second product: the weights against the value tile -/

private theorem lhs_wv_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
private theorem lhs_wv_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
private theorem rhs_wv_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
private theorem rhs_wv_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- The second product at `(b, c)`: the sum over the tile's rows `j` of the left operand at `(b, j)` times the right at `(j, c)`. -/
private theorem matmul_wv_apply (w : FVec Ideal S1024x2048 .bf16) (v : FVec Ideal S2048x512 .bf16) (b : Fin 1024) (c : Fin 512) :
    matmul (F := Ideal) dot_S1024x2048_S2048x512_S1024x512_1_0_0_1_n_n none w v (constant S1024x512 .f32 0x00000000#32) (ix2 b c)
      = ∑ j : Fin 2048, w (ix2 b j) * v (ix2 j c) := by
  refine (Ideal.matmul_constant_zero_apply dot_S1024x2048_S2048x512_S1024x512_1_0_0_1_n_n none _ _ _).trans ?_
  rw [← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 b c) ((contrEquiv1 dot_S1024x2048_S2048x512_S1024x512_1_0_0_1_n_n 2048 rfl rfl).symm k) = ix2 b k := funext fun a => Fin.ext (by
    match a with
    | ⟨0, _⟩ => exact lhs_wv_0 _ _
    | ⟨1, _⟩ => exact (lhs_wv_1 _ _).trans hk)
  have er : dot_S1024x2048_S2048x512_S1024x512_1_0_0_1_n_n.rhsIdx (ix2 b c) ((contrEquiv1 dot_S1024x2048_S2048x512_S1024x512_1_0_0_1_n_n 2048 rfl rfl).symm k) = ix2 k c := funext fun a => Fin.ext (by
    match a with
    | ⟨0, _⟩ => exact (rhs_wv_0 _ _).trans hk
    | ⟨1, _⟩ => exact rhs_wv_1 _ _)
  rw [el, er]

/-! ## The step at a row -/

theorem nextMax_apply (q : Vec Ideal S1024x64 .bf16) (kb : Vec Ideal S2048x64 .f32) (mx : Vec Ideal S1024x1 .f32) (b : Fin 1024) :
    nextMax (F := Ideal) q kb mx (ix2 b (0 : Fin 1)) = stepM (mx (ix2 b (0 : Fin 1))) (tileScore q kb b) := by
  unfold nextMax k0_pay2
  rw [shapeCast_self]
  exact pay10_apply q kb mx b

theorem nextSum_apply (q : Vec Ideal S1024x64 .bf16) (kb : Vec Ideal S2048x64 .f32) (mx l : Vec Ideal S1024x1 .f32) (b : Fin 1024) :
    nextSum (F := Ideal) q kb mx l (ix2 b (0 : Fin 1))
      = stepL (mx (ix2 b (0 : Fin 1))) (l (ix2 b (0 : Fin 1))) (tileScore q kb b) := by
  unfold nextSum k0_pay13 stepL
  rw [shapeCast_self]
  refine (addf_apply _ _ _).trans ?_
  refine congrArg₂ (· + ·) ?_ ?_
  · refine (mulf_apply _ _ _).trans ?_
    rw [pay11_apply]
  · refine (shapeCast_a_a1_apply _ _ b 0).trans ?_
    refine (rowSum_apply _ b).trans ?_
    exact Finset.sum_congr rfl fun j _ => pay12_apply q kb mx b j

theorem nextAcc_apply (q : Vec Ideal S1024x64 .bf16) (kb : Vec Ideal S2048x64 .f32) (vb : Vec Ideal S2048x512 .f32)
    (acc : Vec Ideal S1024x512 .f32) (mx : Vec Ideal S1024x1 .f32) (b : Fin 1024) (c : Fin 512) :
    nextAcc (F := Ideal) q kb vb acc mx (ix2 b c)
      = stepA (mx (ix2 b (0 : Fin 1))) (acc (ix2 b c)) (tileScore q kb b) (fun j : Fin 2048 => vb (ix2 j c)) := by
  unfold nextAcc k0_pay1 k0_pay14 stepA
  rw [shapeCast_self]
  refine (addf_apply _ _ _).trans ?_
  refine congrArg₂ (· + ·) ?_ ?_
  · refine (mulf_apply _ _ _).trans ?_
    rw [broadcastTo_a1_ab_apply, pay11_apply]
  · refine (matmul_wv_apply _ _ b c).trans ?_
    refine Finset.sum_congr rfl fun j _ => ?_
    show k0_pay12 (F := Ideal) q kb mx (ix2 b j) * vb (ix2 j c) = _
    rw [pay12_apply]

/-- The reset values: the maximum starts at `⊥`, the two sums at `0`. -/
theorem mx0_apply (i : S1024x1.Idx) : mx0 (F := Ideal) i = ⊥ := by
  unfold mx0 k0_pay7
  rw [shapeCast_self]
  show Ideal.ofBits .f32 0xFF800000#32 = ⊥
  simp [Ideal.ofBits, Ideal.ieee]
theorem l0_apply (i : S1024x1.Idx) : l0 (F := Ideal) i = 0 := by
  unfold l0 k0_pay8
  rw [shapeCast_self]
  exact Ideal.ofBits_zero_f32
theorem acc0_apply (i : S1024x512.Idx) : acc0 (F := Ideal) i = 0 := by
  unfold acc0 k0_pay6
  rw [shapeCast_self]
  exact Ideal.ofBits_zero_f32

end Cert.MemAttn

end
-- ==== Proof.Invariant.lean ====
/-
  The sweep's invariant, in real numbers.

  Fix real data that the query, key and value arrays are the images of.  Within sweep `h` (slots
  `131072 h …`) the carried arrays after step `k` represent, row by row, the streaming-softmax state
  over the first `2048 (k + 1)` slots of the sweep: a real level, the sum of the weights at that
  level, and, per column, the weighted sum of the values (`OnlineSoftmax.Rep`).  The first step
  starts from the reset triple `(⊥, 0, 0)`; every later one continues the state the step before
  left.  After step 63 the state covers the sweep's 131072 slots.
-/
import proofs.«405542_j14559939133709_3_alg».proof.Proof.Sweep
import proofs.«405542_j14559939133709_3_alg».proof.Proof.StepAt
import proofs.«405542_j14559939133709_3_alg».proof.Proof.Spec

set_option maxRecDepth 16384

noncomputable section

namespace Cert.MemAttn

open Idealize.ShloMosaic Idealize.ShloMosaic.ValueIdx Idealize.ShloMosaic.TcCoe Idealize.SL.Sem
open Cert.KernelIdeal Cert.KernelIdeal.Gen Cert.OnlineSoftmax

variable (m : (ℓ : Loc nD τ sig) → Buf (Elt Ideal) ℓ)

/-- The scores and values of sweep `h`, numbered from the sweep's first slot. -/
def sweepScore (D : RealData) (b : Fin 1024) (h : ℕ) (j : ℕ) : ℝ := D.score b (131072 * h + j)
def sweepVal (D : RealData) (e : Fin 512) (h : ℕ) (j : ℕ) : ℝ := D.v (131072 * h + j) e

variable (D : RealData) (c : Dev nD) (hD : Agree D (qarr m c) (karr m c) (varr m c))

include hD in
/-- A tile's scores are the real scores of its slots. -/
theorem tileScore_real (t : Fin cfg0.N) (b : Fin 1024) (j : Fin 2048) :
    tileScore (qblk m c t) (kblk m c t) b j = ((D.score b (2048 * t.val + j.val) : ℝ) : EReal) := by
  have h128 : t.val < 128 := lt_of_lt_of_eq t.isLt N128
  have hlt : 2048 * t.val + j.val < 262144 := by have := j.isLt; omega
  unfold tileScore RealData.score
  rw [coe_sum]
  refine Finset.sum_congr rfl fun d _ => ?_
  rw [qblk_eq, kblk_apply m c t j d hlt, EReal.coe_mul]
  show qarr m c (ix2 b d) * karr m c (ix2 ⟨_, hlt⟩ d) = _
  rw [hD.1 b d, hD.2.1 ⟨_, hlt⟩ d]

include hD in
/-- A value tile's entries are the real values of its slots. -/
theorem vblk_real (t : Fin cfg0.N) (j : Fin 2048) (e : Fin 512) :
    vblk m c t (ix2 j e) = ((D.v (2048 * t.val + j.val) e : ℝ) : EReal) := by
  have h128 : t.val < 128 := lt_of_lt_of_eq t.isLt N128
  have hlt : 2048 * t.val + j.val < 262144 := by have := j.isLt; omega
  rw [vblk_apply m c t j e hlt]
  exact hD.2.2 ⟨_, hlt⟩ e

/-- The invariant at position `n`. -/
def Inv (n : ℕ) (hn : n < cfg0.N) (b : Fin 1024) (e : Fin 512) : Prop :=
  Rep (sweepScore D b (n / 64)) (sweepVal D e (n / 64)) (2048 * (n % 64 + 1))
    (mxAt m c n hn (ix2 b (0 : Fin 1))) (lAt m c n hn (ix2 b (0 : Fin 1))) (accAt m c n hn (ix2 b e))

include hD in
theorem inv_first (t : Fin cfg0.N) (h0 : t.val % 64 = 0) (b : Fin 1024) (e : Fin 512) : Inv m D c t.val t.isLt b e := by
  unfold Inv
  rw [mxAt_first m c t h0, lAt_first m c t h0, accAt_first m c t h0, nextMax_apply, nextSum_apply, nextAcc_apply]
  have hstep := rep_step (T := 2048) (sweepScore D b (t.val / 64)) (sweepVal D e (t.val / 64)) 0 (by norm_num)
    (m := mx0 (F := Ideal) (ix2 b (0 : Fin 1))) (l := l0 (F := Ideal) (ix2 b (0 : Fin 1))) (a := acc0 (F := Ideal) (ix2 b e))
    (Or.inr ⟨rfl, mx0_apply _, l0_apply _, acc0_apply _⟩)
    (tileScore (qblk m c t) (kblk m c t) b) (fun j : Fin 2048 => vblk m c t (ix2 j e))
    (fun j => by
      rw [tileScore_real m D c hD]; unfold sweepScore
      have : 2048 * t.val + j.val = 131072 * (t.val / 64) + (0 + j.val) := by omega
      rw [this])
    (fun j => by
      rw [vblk_real m D c hD]; unfold sweepVal
      have : 2048 * t.val + j.val = 131072 * (t.val / 64) + (0 + j.val) := by omega
      rw [this])
  have e1 : 2048 * (t.val % 64 + 1) = 0 + 2048 := by omega
  rw [e1]; exact hstep

include hD in
theorem inv_next (t : Fin cfg0.N) (h0 : ¬t.val % 64 = 0) (b : Fin 1024) (e : Fin 512)
    (ih : Inv m D c (t.val - 1) (Nat.lt_of_le_of_lt (Nat.sub_le _ _) t.isLt) b e) : Inv m D c t.val t.isLt b e := by
  unfold Inv at ih ⊢
  rw [mxAt_next m c t h0, lAt_next m c t h0, accAt_next m c t h0, nextMax_apply, nextSum_apply, nextAcc_apply]
  have e0 : (t.val - 1) / 64 = t.val / 64 := by omega
  have e1 : 2048 * ((t.val - 1) % 64 + 1) = 2048 * (t.val % 64) := by omega
  rw [e0, e1] at ih
  have hstep := rep_step (T := 2048) (sweepScore D b (t.val / 64)) (sweepVal D e (t.val / 64)) (2048 * (t.val % 64)) (by norm_num)
    (Or.inl ih)
    (tileScore (qblk m c t) (kblk m c t) b) (fun j : Fin 2048 => vblk m c t (ix2 j e))
    (fun j => by
      rw [tileScore_real m D c hD]; unfold sweepScore
      have : 2048 * t.val + j.val = 131072 * (t.val / 64) + (2048 * (t.val % 64) + j.val) := by omega
      rw [this])
    (fun j => by
      rw [vblk_real m D c hD]; unfold sweepVal
      have : 2048 * t.val + j.val = 131072 * (t.val / 64) + (2048 * (t.val % 64) + j.val) := by omega
      rw [this])
  have e2 : 2048 * (t.val % 64 + 1) = 2048 * (t.val % 64) + 2048 := by omega
  rw [e2]; exact hstep

include hD in
/-- The invariant holds at every position, by induction on the position. -/
theorem inv_all : ∀ (n : ℕ) (hn : n < cfg0.N) (b : Fin 1024) (e : Fin 512), Inv m D c n hn b e := by
  intro n
  induction n using Nat.strong_induction_on with
  | _ n ih =>
    intro hn b e
    by_cases h0 : n % 64 = 0
    · exact inv_first m D c hD ⟨n, hn⟩ h0 b e
    · exact inv_next m D c hD ⟨n, hn⟩ h0 b e (ih (n - 1) (by omega) _ b e)

/-- The last point of sweep `h`. -/
def sweepEnd (h : Fin 2) : Fin cfg0.N := ⟨64 * h.val + 63, by rw [N128]; omega⟩

include hD in
/-- After its last step, sweep `h`'s state covers its 131072 slots. -/
theorem sweep_done (h : Fin 2) (b : Fin 1024) (e : Fin 512) :
    Rep (sweepScore D b h.val) (sweepVal D e h.val) 131072
      (mxAt m c (sweepEnd h).val (sweepEnd h).isLt (ix2 b (0 : Fin 1)))
      (lAt m c (sweepEnd h).val (sweepEnd h).isLt (ix2 b (0 : Fin 1)))
      (accAt m c (sweepEnd h).val (sweepEnd h).isLt (ix2 b e)) := by
  have hi := inv_all m D c hD (sweepEnd h).val (sweepEnd h).isLt b e
  unfold Inv at hi
  have e0 : (sweepEnd h).val / 64 = h.val := by show (64 * h.val + 63) / 64 = h.val; omega
  have e1 : 2048 * ((sweepEnd h).val % 64 + 1) = 131072 := by show 2048 * ((64 * h.val + 63) % 64 + 1) = 131072; omega
  rw [e0, e1] at hi
  exact hi

end Cert.MemAttn

end
-- ==== Proof.Outputs.lean ====
/-
  The three arrays the kernel call leaves.

  Each output window has one block per sweep (block index `t / 64`), written back once, after the
  sweep's last point.  So the weighted-sum array at `(h, b, e)`, the maxima at `(h, b, 0)` and the
  sums of weights at `(h, b, 0)` are the carried arrays after the last point of sweep `h`.
-/
import proofs.«405542_j14559939133709_3_alg».proof.Proof.Invariant

set_option maxRecDepth 16384

noncomputable section

namespace Cert.MemAttn

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- A carried array stored with a leading unit axis is read at its two trailing coordinates. -/
theorem pay3_apply (v : Vec Ideal S1024x512 .f32) (j : S1x1024x512.Idx) : k0_pay3 v j = v (ix2 (j 1) (j 2)) := by
  unfold k0_pay3
  refine (shapeCast_addUnit_apply ![1024, 512] v _ j).trans ?_
  congr 1
  funext a
  match a with
  | ⟨0, _⟩ => rfl
  | ⟨1, _⟩ => rfl

theorem pay4_apply (v : Vec Ideal S1024x1 .f32) (j : S1x1024x1.Idx) : k0_pay4 v j = v (ix2 (j 1) (j 2)) := by
  unfold k0_pay4
  refine (shapeCast_addUnit_apply ![1024, 1] v _ j).trans ?_
  congr 1
  funext a
  match a with
  | ⟨0, _⟩ => rfl
  | ⟨1, _⟩ => rfl

theorem pay5_apply (v : Vec Ideal S1024x1 .f32) (j : S1x1024x1.Idx) : k0_pay5 v j = v (ix2 (j 1) (j 2)) := by
  unfold k0_pay5
  refine (shapeCast_addUnit_apply ![1024, 1] v _ j).trans ?_
  congr 1
  funext a
  match a with
  | ⟨0, _⟩ => rfl
  | ⟨1, _⟩ => rfl

/-- The carried arrays after point `t`, as functions of the point. -/
def accF (c : Dev nD) (t : Fin cfg0.N) : Vec Ideal S1024x512 .f32 := accAt m c t.val t.isLt
def mxF (c : Dev nD) (t : Fin cfg0.N) : Vec Ideal S1024x1 .f32 := mxAt m c t.val t.isLt
def lF (c : Dev nD) (t : Fin cfg0.N) : Vec Ideal S1024x1 .f32 := lAt m c t.val t.isLt

/-- What the three result arrays hold: the carried arrays after each sweep's last point. -/
def G3 (c : Dev nD) : S2x1024x512.Idx → EReal := fun i => accF m c (sweepEnd (i 0)) (ix2 (i 1) (i 2))
def G4 (c : Dev nD) : S2x1024x1.Idx → EReal := fun i => mxF m c (sweepEnd (i 0)) (ix2 (i 1) (i 2))
def G5 (c : Dev nD) : S2x1024x1.Idx → EReal := fun i => lF m c (sweepEnd (i 0)) (ix2 (i 1) (i 2))

/-- The output windows' block indices over the grid: block (t / 64, 0, 0). -/
theorem idx_out : ∀ t : Fin cfg0.N,
    (win0_3.index t 0 = t.val / 64 ∧ win0_3.index t 1 = 0 ∧ win0_3.index t 2 = 0)
    ∧ (win0_4.index t 0 = t.val / 64 ∧ win0_4.index t 1 = 0 ∧ win0_4.index t 2 = 0)
    ∧ (win0_5.index t 0 = t.val / 64 ∧ win0_5.index t 1 = 0 ∧ win0_5.index t 2 = 0) :=
  (by decide +kernel : ∀ t : Fin grid0.N, _)

theorem flushed3 (c : Dev nD) (t : Fin cfg0.N) (hf : (cfg0.win 3).flush t = true) :
    (dats m 0 c).flushed 3 t = ((cfg0.win 3).blk t).view.read (Elt Ideal) (G3 m c) := by
  have h1 : t.val % 64 = 63 := (flush0_3 t).mp hf
  have h128 : t.val < 128 := lt_of_lt_of_eq t.isLt N128
  show (cfg0.win 3).cut (grid0.coords t) ((dats m 0 c).after 3 t) = _
  rw [after0_3, out3_last m c t h1]
  funext y
  rw [View.read_apply]
  show k0_pay3 (accAt m c t.val t.isLt) ((cfg0.win 3).xinj (grid0.coords t) y) = G3 m c (((cfg0.win 3).blk t).view.emb y)
  rw [pay3_apply]
  unfold G3
  have hy0 : (y 0).val < 1 := (y 0).isLt
  have ht : sweepEnd (((cfg0.win 3).blk t).view.emb y 0) = t := by
    apply Fin.ext
    show 64 * (win0_3.index t 0 * 1 + 1 * (y 0).val) + 63 = t.val
    rw [(idx_out t).1.1]; omega
  rw [ht]
  show accAt m c t.val t.isLt _ = accAt m c t.val t.isLt _
  congr 1
  funext a
  apply Fin.ext
  match a with
  | ⟨0, _⟩ => show (y 1).val = win0_3.index t 1 * 1024 + 1 * (y 1).val; rw [(idx_out t).1.2.1]; omega
  | ⟨1, _⟩ => show (y 2).val = win0_3.index t 2 * 512 + 1 * (y 2).val; rw [(idx_out t).1.2.2]; omega

theorem flushed4 (c : Dev nD) (t : Fin cfg0.N) (hf : (cfg0.win 4).flush t = true) :
    (dats m 0 c).flushed 4 t = ((cfg0.win 4).blk t).view.read (Elt Ideal) (G4 m c) := by
  have h1 : t.val % 64 = 63 := (flush0_4 t).mp hf
  have h128 : t.val < 128 := lt_of_lt_of_eq t.isLt N128
  show (cfg0.win 4).cut (grid0.coords t) ((dats m 0 c).after 4 t) = _
  rw [after0_4, out4_last m c t h1]
  funext y
  rw [View.read_apply]
  show k0_pay4 (mxAt m c t.val t.isLt) ((cfg0.win 4).xinj (grid0.coords t) y) = G4 m c (((cfg0.win 4).blk t).view.emb y)
  rw [pay4_apply]
  unfold G4
  have hy0 : (y 0).val < 1 := (y 0).isLt
  have ht : sweepEnd (((cfg0.win 4).blk t).view.emb y 0) = t := by
    apply Fin.ext
    show 64 * (win0_4.index t 0 * 1 + 1 * (y 0).val) + 63 = t.val
    rw [(idx_out t).2.1.1]; omega
  rw [ht]
  show mxAt m c t.val t.isLt _ = mxAt m c t.val t.isLt _
  congr 1
  funext a
  apply Fin.ext
  match a with
  | ⟨0, _⟩ => show (y 1).val = win0_4.index t 1 * 1024 + 1 * (y 1).val; rw [(idx_out t).2.1.2.1]; omega
  | ⟨1, _⟩ => show (y 2).val = win0_4.index t 2 * 1 + 1 * (y 2).val; rw [(idx_out t).2.1.2.2]; omega

theorem flushed5 (c : Dev nD) (t : Fin cfg0.N) (hf : (cfg0.win 5).flush t = true) :
    (dats m 0 c).flushed 5 t = ((cfg0.win 5).blk t).view.read (Elt Ideal) (G5 m c) := by
  have h1 : t.val % 64 = 63 := (flush0_5 t).mp hf
  have h128 : t.val < 128 := lt_of_lt_of_eq t.isLt N128
  show (cfg0.win 5).cut (grid0.coords t) ((dats m 0 c).after 5 t) = _
  rw [after0_5, out5_last m c t h1]
  funext y
  rw [View.read_apply]
  show k0_pay5 (lAt m c t.val t.isLt) ((cfg0.win 5).xinj (grid0.coords t) y) = G5 m c (((cfg0.win 5).blk t).view.emb y)
  rw [pay5_apply]
  unfold G5
  have hy0 : (y 0).val < 1 := (y 0).isLt
  have ht : sweepEnd (((cfg0.win 5).blk t).view.emb y 0) = t := by
    apply Fin.ext
    show 64 * (win0_5.index t 0 * 1 + 1 * (y 0).val) + 63 = t.val
    rw [(idx_out t).2.2.1]; omega
  rw [ht]
  show lAt m c t.val t.isLt _ = lAt m c t.val t.isLt _
  congr 1
  funext a
  apply Fin.ext
  match a with
  | ⟨0, _⟩ => show (y 1).val = win0_5.index t 1 * 1024 + 1 * (y 1).val; rw [(idx_out t).2.2.2.1]; omega
  | ⟨1, _⟩ => show (y 2).val = win0_5.index t 2 * 1 + 1 * (y 2).val; rw [(idx_out t).2.2.2.2]; omega

theorem cover3 (i : S2x1024x512.Idx) : ∃ t : Fin cfg0.N, (cfg0.win 3).flush t = true ∧ i ∈ ((cfg0.win 3).blk t).view.set := by
  have hi0 : (i 0).val < 2 := (i 0).isLt
  have hi1 : (i 1).val < 1024 := (i 1).isLt
  have hi2 : (i 2).val < 512 := (i 2).isLt
  refine ⟨sweepEnd (i 0), (flush0_3 _).mpr (by show (64 * (i 0).val + 63) % 64 = 63; omega), ?_⟩
  show i ∈ ((View.whole main_v19_0).slice (win0_3.rect (sweepEnd (i 0)))).set
  rw [View.set_slice_whole, Rect.mem_set_unit]
  obtain ⟨e0, e1, e2⟩ := (idx_out (sweepEnd (i 0))).1
  have ev : (sweepEnd (i 0)).val / 64 = (i 0).val := by show (64 * (i 0).val + 63) / 64 = (i 0).val; omega
  intro a
  match a with
  | ⟨0, _⟩ => show win0_3.index (sweepEnd (i 0)) 0 * 1 ≤ (i 0).val ∧ (i 0).val < win0_3.index (sweepEnd (i 0)) 0 * 1 + 1; rw [e0, ev]; omega
  | ⟨1, _⟩ => show win0_3.index (sweepEnd (i 0)) 1 * 1024 ≤ (i 1).val ∧ (i 1).val < win0_3.index (sweepEnd (i 0)) 1 * 1024 + 1024; rw [e1]; omega
  | ⟨2, _⟩ => show win0_3.index (sweepEnd (i 0)) 2 * 512 ≤ (i 2).val ∧ (i 2).val < win0_3.index (sweepEnd (i 0)) 2 * 512 + 512; rw [e2]; omega

/-- The array ends holding the carried array after each sweep's last point. -/
theorem final3 (c : Dev nD) : ((dats m 0 c).arrAt 3 cfg0.N : S2x1024x512.Idx → EReal) = G3 m c :=
  (dats m 0 c).arrAt_eq_of_cover 3 (G3 m c) (flushed3 m c) (cover3)

theorem cover4 (i : S2x1024x1.Idx) : ∃ t : Fin cfg0.N, (cfg0.win 4).flush t = true ∧ i ∈ ((cfg0.win 4).blk t).view.set := by
  have hi0 : (i 0).val < 2 := (i 0).isLt
  have hi1 : (i 1).val < 1024 := (i 1).isLt
  have hi2 : (i 2).val < 1 := (i 2).isLt
  refine ⟨sweepEnd (i 0), (flush0_4 _).mpr (by show (64 * (i 0).val + 63) % 64 = 63; omega), ?_⟩
  show i ∈ ((View.whole main_v19_1).slice (win0_4.rect (sweepEnd (i 0)))).set
  rw [View.set_slice_whole, Rect.mem_set_unit]
  obtain ⟨e0, e1, e2⟩ := (idx_out (sweepEnd (i 0))).2.1
  have ev : (sweepEnd (i 0)).val / 64 = (i 0).val := by show (64 * (i 0).val + 63) / 64 = (i 0).val; omega
  intro a
  match a with
  | ⟨0, _⟩ => show win0_4.index (sweepEnd (i 0)) 0 * 1 ≤ (i 0).val ∧ (i 0).val < win0_4.index (sweepEnd (i 0)) 0 * 1 + 1; rw [e0, ev]; omega
  | ⟨1, _⟩ => show win0_4.index (sweepEnd (i 0)) 1 * 1024 ≤ (i 1).val ∧ (i 1).val < win0_4.index (sweepEnd (i 0)) 1 * 1024 + 1024; rw [e1]; omega
  | ⟨2, _⟩ => show win0_4.index (sweepEnd (i 0)) 2 * 1 ≤ (i 2).val ∧ (i 2).val < win0_4.index (sweepEnd (i 0)) 2 * 1 + 1; rw [e2]; omega

/-- The array ends holding the carried array after each sweep's last point. -/
theorem final4 (c : Dev nD) : ((dats m 0 c).arrAt 4 cfg0.N : S2x1024x1.Idx → EReal) = G4 m c :=
  (dats m 0 c).arrAt_eq_of_cover 4 (G4 m c) (flushed4 m c) (cover4)

theorem cover5 (i : S2x1024x1.Idx) : ∃ t : Fin cfg0.N, (cfg0.win 5).flush t = true ∧ i ∈ ((cfg0.win 5).blk t).view.set := by
  have hi0 : (i 0).val < 2 := (i 0).isLt
  have hi1 : (i 1).val < 1024 := (i 1).isLt
  have hi2 : (i 2).val < 1 := (i 2).isLt
  refine ⟨sweepEnd (i 0), (flush0_5 _).mpr (by show (64 * (i 0).val + 63) % 64 = 63; omega), ?_⟩
  show i ∈ ((View.whole main_v19_2).slice (win0_5.rect (sweepEnd (i 0)))).set
  rw [View.set_slice_whole, Rect.mem_set_unit]
  obtain ⟨e0, e1, e2⟩ := (idx_out (sweepEnd (i 0))).2.2
  have ev : (sweepEnd (i 0)).val / 64 = (i 0).val := by show (64 * (i 0).val + 63) / 64 = (i 0).val; omega
  intro a
  match a with
  | ⟨0, _⟩ => show win0_5.index (sweepEnd (i 0)) 0 * 1 ≤ (i 0).val ∧ (i 0).val < win0_5.index (sweepEnd (i 0)) 0 * 1 + 1; rw [e0, ev]; omega
  | ⟨1, _⟩ => show win0_5.index (sweepEnd (i 0)) 1 * 1024 ≤ (i 1).val ∧ (i 1).val < win0_5.index (sweepEnd (i 0)) 1 * 1024 + 1024; rw [e1]; omega
  | ⟨2, _⟩ => show win0_5.index (sweepEnd (i 0)) 2 * 1 ≤ (i 2).val ∧ (i 2).val < win0_5.index (sweepEnd (i 0)) 2 * 1 + 1; rw [e2]; omega

/-- The array ends holding the carried array after each sweep's last point. -/
theorem final5 (c : Dev nD) : ((dats m 0 c).arrAt 5 cfg0.N : S2x1024x1.Idx → EReal) = G5 m c :=
  (dats m 0 c).arrAt_eq_of_cover 5 (G5 m c) (flushed5 m c) (cover5)

end Cert.MemAttn

end
-- ==== Proof.Tail.lean ====
/-
  The host lines around the kernel call, read at one entry.

  Before the call the host computes the query network's output (the same operations as the
  reference, then a change of format, which is the identity here).  After the call it merges the two
  halves' partial results: with `M = max m₀ m₁` per row, the factors `exp (m₀ - M)`, `exp (m₁ - M)`
  rescale the two weighted sums and the two sums of weights, and the result is the quotient.
-/
import proofs.«405542_j14559939133709_3_alg».proof.Proof.Gen.KernelIdeal.Frame
import proofs.«405542_j14559939133709_3_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.MemAttn

open Idealize.ShloMosaic Idealize.ShloMosaic.ValueIdx Idealize.ShloMosaic.TcCoe Idealize.SL.Sem Idealize.ShloMosaic.StableHlo
open Cert.KernelIdeal Cert.KernelIdeal.Gen

set_option maxHeartbeats 400000 in
/-- The kernel call's first operand, as the region finds it, is the query network's output: the very
    term the reference computes (its stage `val_main_v17`) of the same argument arrays. -/
theorem kernel_q (m : (ℓ : Loc nD τ sig) → Buf (Elt Ideal) ℓ) (c : Dev nD) :
    (V m c main_v18 : S1024x64.Idx → EReal)
      = Cert.ReferenceIdeal.Read.val_main_v17 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  -- the lines before the call, flattened into one list, then read result by result
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  -- the change of format is the identity on extended reals; what remains is the reference's own term
  rfl

/-- Row `h` of a two-row stack, taken by a slice and a change of shape, read at an entry. -/
private theorem row_at {N : Nat} (h : Fin 2) (off : Fin 3 → Nat) (h0 : off 0 = h.val) (h1 : off 1 = 0) (h2 : off 2 = 0)
    (X : (⟨3, ![2, 1024, N]⟩ : Shape).Idx → EReal)
    (hs : (⟨3, ![2, 1024, N]⟩ : Shape).Slices off ⟨3, ![1, 1024, N]⟩)
    (hc : (⟨3, ![1, 1024, N]⟩ : Shape).ShapeCasts ⟨2, ![1024, N]⟩) (b : Fin 1024) (j : Fin N) :
    shapeCast ⟨2, ![1024, N]⟩ (extractStridedSlice ⟨3, ![1, 1024, N]⟩ off X hs) hc (ix2 b j) = X (ix3 h b j) := by
  rw [shapeCast_1ab_ab_apply]
  refine extractStridedSlice_apply off X hs _ _ fun a => ?_
  match a with
  | ⟨0, _⟩ => show h.val = off 0 + 0; rw [h0, Nat.add_zero]
  | ⟨1, _⟩ => show b.val = off 1 + b.val; rw [h1, Nat.zero_add]
  | ⟨2, _⟩ => show j.val = off 2 + j.val; rw [h2, Nat.zero_add]

/-- A column repeated along the rows' entries, read at an entry. -/
private theorem col_bcast_at (x : S1024x1.Idx → EReal) (h : S1024x1.BroadcastsInDim S1024x512 ![0, 1]) (b : Fin 1024) (j : Fin 512) :
    broadcastInDim S1024x512 ![0, 1] h x (ix2 b j) = x (ix2 b (0 : Fin 1)) := by
  refine broadcastInDim_apply _ h x _ _ fun a => ?_
  match a with
  | ⟨0, _⟩ => rfl
  | ⟨1, _⟩ => rfl

/-- The host's quotient at an entry is the quotient of the entries. -/
private theorem hostDivf_at {s : Shape} {φ : FTy} (x y : FVec Ideal s φ) (i : s.Idx) : Host.divf x y i = Ideal.div (x i) (y i) := rfl
/-- The host's exponential at an entry is the exponential of the entry. -/
private theorem hostExp_at {s : Shape} {φ : FTy} (x : FVec Ideal s φ) (i : s.Idx) : Host.exp x i = Ideal.exp (x i) := rfl

/-- The lines after the call over plain arrays, read at an entry: each half's row of `M`, `L`, `A` is taken by a slice
    and a change of shape, the rows' maximum and the two factors are columns, and the columns are repeated along the row. -/
private theorem merge_at (A : S2x1024x512.Idx → EReal) (M L : S2x1024x1.Idx → EReal) (b : Fin 1024) (c' : Fin 512) :
    let m0 : FVec Ideal S1024x1 .f32 := fun i => shapeCast S1024x1 (extractStridedSlice S1x1024x1 ![0, 0, 0] M slices_S2x1024x1_S1x1024x1_0_0_0) shapeCasts_S1x1024x1_S1024x1 i
    let m1 : FVec Ideal S1024x1 .f32 := fun i => shapeCast S1024x1 (extractStridedSlice S1x1024x1 ![1, 0, 0] M slices_S2x1024x1_S1x1024x1_1_0_0) shapeCasts_S1x1024x1_S1024x1 i
    let l0 : FVec Ideal S1024x1 .f32 := fun i => shapeCast S1024x1 (extractStridedSlice S1x1024x1 ![0, 0, 0] L slices_S2x1024x1_S1x1024x1_0_0_0) shapeCasts_S1x1024x1_S1024x1 i
    let l1 : FVec Ideal S1024x1 .f32 := fun i => shapeCast S1024x1 (extractStridedSlice S1x1024x1 ![1, 0, 0] L slices_S2x1024x1_S1x1024x1_1_0_0) shapeCasts_S1x1024x1_S1024x1 i
    let a0 : FVec Ideal S1024x512 .f32 := fun i => shapeCast S1024x512 (extractStridedSlice S1x1024x512 ![0, 0, 0] A slices_S2x1024x512_S1x1024x512_0_0_0) shapeCasts_S1x1024x512_S1024x512 i
    let a1 : FVec Ideal S1024x512 .f32 := fun i => shapeCast S1024x512 (extractStridedSlice S1x1024x512 ![1, 0, 0] A slices_S2x1024x512_S1x1024x512_1_0_0) shapeCasts_S1x1024x512_S1024x512 i
    let e0 : FVec Ideal S1024x1 .f32 := Host.exp (subf m0 (maximumf m0 m1))
    let e1 : FVec Ideal S1024x1 .f32 := Host.exp (subf m1 (maximumf m0 m1))
    Host.divf
        (addf (mulf (broadcastInDim S1024x512 ![0, 1] bcast_S1024x1_S1024x512_0_1 e0) a0)
          (mulf (broadcastInDim S1024x512 ![0, 1] bcast_S1024x1_S1024x512_0_1 e1) a1))
        (broadcastInDim S1024x512 ![0, 1] bcast_S1024x1_S1024x512_0_1 (addf (mulf e0 l0) (mulf e1 l1))) (ix2 b c')
      = Ideal.div
          (Ideal.exp (M (ix3 (0 : Fin 2) b (0 : Fin 1)) - max (M (ix3 (0 : Fin 2) b (0 : Fin 1))) (M (ix3 (1 : Fin 2) b (0 : Fin 1)))) * A (ix3 (0 : Fin 2) b c')
            + Ideal.exp (M (ix3 (1 : Fin 2) b (0 : Fin 1)) - max (M (ix3 (0 : Fin 2) b (0 : Fin 1))) (M (ix3 (1 : Fin 2) b (0 : Fin 1)))) * A (ix3 (1 : Fin 2) b c'))
          (Ideal.exp (M (ix3 (0 : Fin 2) b (0 : Fin 1)) - max (M (ix3 (0 : Fin 2) b (0 : Fin 1))) (M (ix3 (1 : Fin 2) b (0 : Fin 1)))) * L (ix3 (0 : Fin 2) b (0 : Fin 1))
            + Ideal.exp (M (ix3 (1 : Fin 2) b (0 : Fin 1)) - max (M (ix3 (0 : Fin 2) b (0 : Fin 1))) (M (ix3 (1 : Fin 2) b (0 : Fin 1)))) * L (ix3 (1 : Fin 2) b (0 : Fin 1))) := by
  intro m0 m1 l0 l1 a0 a1 e0 e1
  have hm0 : m0 (ix2 b 0) = M (ix3 0 b 0) := row_at 0 _ rfl rfl rfl M _ _ b 0
  have hm1 : m1 (ix2 b 0) = M (ix3 1 b 0) := row_at 1 _ rfl rfl rfl M _ _ b 0
  have hl0 : l0 (ix2 b 0) = L (ix3 0 b 0) := row_at 0 _ rfl rfl rfl L _ _ b 0
  have hl1 : l1 (ix2 b 0) = L (ix3 1 b 0) := row_at 1 _ rfl rfl rfl L _ _ b 0
  have ha0 : a0 (ix2 b c') = A (ix3 0 b c') := row_at 0 _ rfl rfl rfl A _ _ b c'
  have ha1 : a1 (ix2 b c') = A (ix3 1 b c') := row_at 1 _ rfl rfl rfl A _ _ b c'
  have he0 : e0 (ix2 b 0) = Ideal.exp (M (ix3 0 b 0) - max (M (ix3 0 b 0)) (M (ix3 1 b 0))) := by
    show Ideal.exp (m0 (ix2 b 0) - max (m0 (ix2 b 0)) (m1 (ix2 b 0))) = _
    rw [hm0, hm1]
  have he1 : e1 (ix2 b 0) = Ideal.exp (M (ix3 1 b 0) - max (M (ix3 0 b 0)) (M (ix3 1 b 0))) := by
    show Ideal.exp (m1 (ix2 b 0) - max (m0 (ix2 b 0)) (m1 (ix2 b 0))) = _
    rw [hm0, hm1]
  rw [hostDivf_at, addf_apply, mulf_apply, mulf_apply, col_bcast_at, col_bcast_at, col_bcast_at, addf_apply, mulf_apply, mulf_apply,
    he0, he1, hl0, hl1, ha0, ha1]

set_option maxHeartbeats 400000 in
/-- The program's result after the lines that follow the call, at entry `(b, c')`, from the three
    arrays the call leaves: the halves' weighted sums `A`, maxima `M` and sums of weights `L`. -/
theorem tail_value (m : (ℓ : Loc nD τ sig) → Buf (Elt Ideal) ℓ) (c : Dev nD)
    (A : S2x1024x512.Idx → EReal) (M L : S2x1024x1.Idx → EReal)
    (hA : ((dats m 0 c).arrAt 3 cfg0.N : S2x1024x512.Idx → EReal) = A)
    (hM : ((dats m 0 c).arrAt 4 cfg0.N : S2x1024x1.Idx → EReal) = M)
    (hL : ((dats m 0 c).arrAt 5 cfg0.N : S2x1024x1.Idx → EReal) = L)
    (b : Fin 1024) (c' : Fin 512) :
    (Pipeline.afterTail₀ cfgs (dats m) 0 (V0 m) [hostOps1] c main_v46 : S1024x512.Idx → EReal) (ix2 b c')
      = Ideal.div
          (Ideal.exp (M (ix3 (0 : Fin 2) b (0 : Fin 1)) - max (M (ix3 (0 : Fin 2) b (0 : Fin 1))) (M (ix3 (1 : Fin 2) b (0 : Fin 1)))) * A (ix3 (0 : Fin 2) b c')
            + Ideal.exp (M (ix3 (1 : Fin 2) b (0 : Fin 1)) - max (M (ix3 (0 : Fin 2) b (0 : Fin 1))) (M (ix3 (1 : Fin 2) b (0 : Fin 1)))) * A (ix3 (1 : Fin 2) b c'))
          (Ideal.exp (M (ix3 (0 : Fin 2) b (0 : Fin 1)) - max (M (ix3 (0 : Fin 2) b (0 : Fin 1))) (M (ix3 (1 : Fin 2) b (0 : Fin 1)))) * L (ix3 (0 : Fin 2) b (0 : Fin 1))
            + Ideal.exp (M (ix3 (1 : Fin 2) b (0 : Fin 1)) - max (M (ix3 (0 : Fin 2) b (0 : Fin 1))) (M (ix3 (1 : Fin 2) b (0 : Fin 1)))) * L (ix3 (1 : Fin 2) b (0 : Fin 1))) := by
  -- the lines after the call, read result by result, over the contents the call leaves
  unfold Pipeline.afterTail₀
  show (StableHlo.after (hostOps1 (F := Ideal)) _ (Proc.devRef .tc main_v46) : S1024x512.Idx → EReal) (ix2 b c') = _
  after_results_simp
  -- the three arrays those lines read are the call's results
  have e3 : Pipeline.withArrays (cfgs 0).spec c (V0 m c) (fun w => (dats m 0 c).arrAt w (cfgs 0).N) (Proc.devRef .tc main_v19_0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v19_1)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.devRef .tc main_v19_2)
      = (dats m 0 c).arrAt 5 cfg0.N := Pipeline.withArrays_arr spec0 launch0.win.arr_inj c _ _ 5
  subst hA hM hL
  rw [e3, e4, e5]
  exact merge_at _ _ _ b c'

end Cert.MemAttn

end
-- ==== Proof.KernelValue.lean ====
/-
  The kernel program's result, entry by entry.

  The three arrays the call leaves hold, per sweep `h` and row `b`, a streaming-softmax state over
  the sweep's 131072 slots.  The host lines after the call merge the two sweeps' states and divide;
  by the merge law the quotient is the attention row over all 262144 slots.
-/
import proofs.«405542_j14559939133709_3_alg».proof.Proof.Outputs
import proofs.«405542_j14559939133709_3_alg».proof.Proof.Tail

set_option maxRecDepth 16384

noncomputable section

namespace Cert.MemAttn

open Idealize.ShloMosaic Idealize.ShloMosaic.ValueIdx Idealize.ShloMosaic.TcCoe Idealize.SL.Sem
open Cert.KernelIdeal Cert.KernelIdeal.Gen Cert.OnlineSoftmax

variable (m : (ℓ : Loc nD τ sig) → Buf (Elt Ideal) ℓ)

/-- The two sweeps together are the whole memory. -/
theorem attn_split (D : RealData) (b : Fin 1024) (e : Fin 512) :
    (∑ j ∈ Finset.range 131072, Real.exp (sweepScore D b 0 j) * sweepVal D e 0 j
        + ∑ j ∈ Finset.range 131072, Real.exp (sweepScore D b 1 j) * sweepVal D e 1 j)
      / (∑ j ∈ Finset.range 131072, Real.exp (sweepScore D b 0 j) + ∑ j ∈ Finset.range 131072, Real.exp (sweepScore D b 1 j))
      = D.attn b e := by
  unfold RealData.attn sweepScore sweepVal
  rw [show (262144 : ℕ) = 131072 + 131072 from rfl, Finset.sum_range_add, Finset.sum_range_add]
  simp only [Nat.mul_zero, Nat.zero_add, Nat.mul_one]

/-- The merge of two sweeps' states, whatever arrays hold them. -/
theorem merge_value (D : RealData) (b : Fin 1024) (e : Fin 512) (m0 l0 a0 m1 l1 a1 : EReal)
    (r0 : Rep (sweepScore D b 0) (sweepVal D e 0) 131072 m0 l0 a0)
    (r1 : Rep (sweepScore D b 1) (sweepVal D e 1) 131072 m1 l1 a1) :
    Ideal.div (Ideal.exp (m0 - max m0 m1) * a0 + Ideal.exp (m1 - max m0 m1) * a1)
        (Ideal.exp (m0 - max m0 m1) * l0 + Ideal.exp (m1 - max m0 m1) * l1)
      = ((D.attn b e : ℝ) : EReal) := by
  have hc := combine (sweepScore D b 0) (sweepVal D e 0) (sweepScore D b 1) (sweepVal D e 1) 131072 131072 (by norm_num) r0 r1
  rw [attn_split] at hc
  exact hc

/-- The three result arrays at a sweep's row (and column) are the carried arrays after the sweep's last point. -/
theorem G3_apply (c : Dev nD) (h : Fin 2) (b : Fin 1024) (e : Fin 512) :
    G3 m c (ix3 h b e) = accAt m c (sweepEnd h).val (sweepEnd h).isLt (ix2 b e) := by
  unfold G3 accF; rfl
theorem G4_apply (c : Dev nD) (h : Fin 2) (b : Fin 1024) :
    G4 m c (ix3 h b (0 : Fin 1)) = mxAt m c (sweepEnd h).val (sweepEnd h).isLt (ix2 b (0 : Fin 1)) := by
  unfold G4 mxF; rfl
theorem G5_apply (c : Dev nD) (h : Fin 2) (b : Fin 1024) :
    G5 m c (ix3 h b (0 : Fin 1)) = lAt m c (sweepEnd h).val (sweepEnd h).isLt (ix2 b (0 : Fin 1)) := by
  unfold G5 lF; rfl

theorem kernel_value (D : RealData) (c : Dev nD) (hD : Agree D (qarr m c) (karr m c) (varr m c)) (b : Fin 1024) (e : Fin 512) :
    (Pipeline.afterTail₀ cfgs (dats m) 0 (V0 m) [hostOps1] c main_v46 : S1024x512.Idx → EReal) (ix2 b e)
      = ((D.attn b e : ℝ) : EReal) := by
  have r0 := sweep_done m D c hD 0 b e
  have r1 := sweep_done m D c hD 1 b e
  rw [tail_value m c (G3 m c) (G4 m c) (G5 m c) (final3 m c) (final4 m c) (final5 m c) b e,
    G3_apply m c 0 b e, G3_apply m c 1 b e, G4_apply m c 0 b, G4_apply m c 1 b, G5_apply m c 0 b, G5_apply m c 1 b]
  generalize mxAt m c (sweepEnd 0).val (sweepEnd 0).isLt (ix2 b (0 : Fin 1)) = m0 at r0 ⊢
  generalize lAt m c (sweepEnd 0).val (sweepEnd 0).isLt (ix2 b (0 : Fin 1)) = l0 at r0 ⊢
  generalize accAt m c (sweepEnd 0).val (sweepEnd 0).isLt (ix2 b e) = a0 at r0 ⊢
  generalize mxAt m c (sweepEnd 1).val (sweepEnd 1).isLt (ix2 b (0 : Fin 1)) = m1 at r1 ⊢
  generalize lAt m c (sweepEnd 1).val (sweepEnd 1).isLt (ix2 b (0 : Fin 1)) = l1 at r1 ⊢
  generalize accAt m c (sweepEnd 1).val (sweepEnd 1).isLt (ix2 b e) = a1 at r1 ⊢
  exact merge_value D b e m0 l0 a0 m1 l1 a1 r0 r1

end Cert.MemAttn

end
-- ==== Proof.RefRead.lean ====
/-
  The reference at one entry.

  The reference forms all scores `q · Kᵀ`, takes the softmax of each row (subtract the row's maximum,
  exponentiate, divide by the row's sum) and multiplies by the values.  On real data, entry `(b, c)`
  of its result is the attention row `attn b c`: the row maximum is some real number, and the
  normalised weights do not depend on which real number is subtracted.
-/
import proofs.«405542_j14559939133709_3_alg».proof.Proof.Gen.ReferenceIdeal.Read
import proofs.«405542_j14559939133709_3_alg».proof.Proof.Spec
import Idealize.ShloMosaic.Lib.ValueIdx
import Idealize.ShloMosaic.Lib.Pipeline.Value
import Idealize.ShloMosaic.PureOps.Ideal.Laws

noncomputable section

namespace Cert.MemAttn

open Idealize.ShloMosaic Idealize.ShloMosaic.ValueIdx Cert.ReferenceIdeal Cert.ReferenceIdeal.Gen Cert.ReferenceIdeal.Read Cert.OnlineSoftmax

section Stages

variable (D : RealData) (x0 : (⟨S1024x2, .i32⟩ : BufTy).Contents (Elt Ideal)) (x1 : (⟨S32x2, .f32⟩ : BufTy).Contents (Elt Ideal)) (x2 : (⟨S32, .f32⟩ : BufTy).Contents (Elt Ideal)) (x3 : (⟨S32x32, .f32⟩ : BufTy).Contents (Elt Ideal)) (x4 : (⟨S32, .f32⟩ : BufTy).Contents (Elt Ideal)) (x5 : (⟨S64x32, .f32⟩ : BufTy).Contents (Elt Ideal)) (x6 : (⟨S64, .f32⟩ : BufTy).Contents (Elt Ideal)) (x7 : (⟨S262144x64, .f32⟩ : BufTy).Contents (Elt Ideal))

/-- A score entry of the reference is the image of the real score. -/
private theorem v19_at
    (hQ : ∀ (b : Fin 1024) (d : Fin 64), val_main_v17 (F := Ideal) x0 x1 x2 x3 x4 x5 x6 (ix2 b d) = ((D.q b d : ℝ) : EReal))
    (hK : ∀ (n : Fin 262144) (d : Fin 64), x7 (ix2 n d) = ((D.k n.val d : ℝ) : EReal))
    (b : Fin 1024) (k : Fin 262144) :
    val_main_v19 (F := Ideal) x0 x1 x2 x3 x4 x5 x6 x7 (ix2 b k) = ((D.score b k.val : ℝ) : EReal) := by
  rw [val_main_v19_apply]
  unfold RealData.score
  rw [coe_sum]
  refine Finset.sum_congr rfl fun d _ => ?_
  have e1 : lidx_main_v19 (ix2 b k) d = ix2 b d :=
    funext fun a => Fin.ext (by match a with | ⟨0, _⟩ => rfl | ⟨1, _⟩ => rfl)
  have e2 : idx_main_v18 (ridx_main_v19 (ix2 b k) d) = ix2 k d :=
    funext fun a => Fin.ext (by match a with | ⟨0, _⟩ => rfl | ⟨1, _⟩ => rfl)
  rw [val_main_v18_apply, e1, e2, hQ, hK, EReal.coe_mul]

/-- The reduced index `b` with slot `k` put back is `(b, k)`. -/
private theorem lift_row (h : S1024x262144.Reduces [1] S1024) (b : Fin 1024) (k : Fin (S1024x262144.size 1)) :
    h.lift (ix1 b) k = ix2 b (⟨k.val, k.isLt⟩ : Fin 262144) := by
  funext c; apply Fin.ext
  match c with
  | ⟨0, _⟩ => rfl
  | ⟨1, _⟩ => rfl

/-- The row maximum of the reference is the fold of `max` from `⊥` over the row's scores. -/
private theorem v20_at
    (hS : ∀ (b : Fin 1024) (k : Fin 262144), val_main_v19 (F := Ideal) x0 x1 x2 x3 x4 x5 x6 x7 (ix2 b k) = ((D.score b k.val : ℝ) : EReal))
    (b : Fin 1024) :
    val_main_v20 (F := Ideal) x0 x1 x2 x3 x4 x5 x6 x7 (ix1 b)
      = (Finset.univ : Finset (Fin 262144)).fold max (⊥ : EReal) (fun k => ((D.score b k.val : ℝ) : EReal)) := by
  unfold val_main_v20
  have h : S1024x262144.Reduces [1] S1024 := by decide
  rw [Host.reduce_eq_fold_single FloatOps.maximumf _ _ reducesTo_S1024x262144_S1024_d1 h h_S_]
  have hf : (val_main_v19 (F := Ideal) x0 x1 x2 x3 x4 x5 x6 x7 ∘ h.lift (ix1 b))
      = fun k : Fin 262144 => ((D.score b k.val : ℝ) : EReal) := funext fun k => by
    show val_main_v19 (F := Ideal) x0 x1 x2 x3 x4 x5 x6 x7 (h.lift (ix1 b) k) = _
    rw [lift_row h b k]
    exact hS b ⟨k.val, k.isLt⟩
  have hb : val_main_cst (F := Ideal) (Shape.Idx.first h_S_) = (⊥ : EReal) := by
    rw [val_main_cst_apply]
    simp [Ideal.ofBits, Ideal.ieee]
  rw [hf, hb]
  rfl

/-- The constant the maximum starts from is `⊥`. -/
private theorem ninf_eq : (FloatOps.ofBits (F := Ideal) .f32 0xFF800000#32 : Ideal .f32) = (⊥ : EReal) := by
  simp [Ideal.ofBits, Ideal.ieee]

/-- The row maximum of the reference is the image of a real number. -/
private theorem v22_real
    (hS : ∀ (b : Fin 1024) (k : Fin 262144), val_main_v19 (F := Ideal) x0 x1 x2 x3 x4 x5 x6 x7 (ix2 b k) = ((D.score b k.val : ℝ) : EReal))
    (b : Fin 1024) :
    ∃ μ : ℝ, val_main_v22 (F := Ideal) x0 x1 x2 x3 x4 x5 x6 x7 (ix1 b) = ((μ : ℝ) : EReal) := by
  obtain ⟨μ, hμ⟩ := fold_max_real (T := 262144) (by norm_num) (fun k => D.score b k.val)
  refine ⟨μ, ?_⟩
  rw [val_main_v22_apply, v20_at D x0 x1 x2 x3 x4 x5 x6 x7 hS b, val_main_v21_apply, val_main_cst_0_apply,
    Ideal.maximumf_def, ninf_eq, hμ, max_bot_left]

/-- An exponentiated entry: the score less the row maximum, exponentiated. -/
private theorem v26_at
    (hS : ∀ (b : Fin 1024) (k : Fin 262144), val_main_v19 (F := Ideal) x0 x1 x2 x3 x4 x5 x6 x7 (ix2 b k) = ((D.score b k.val : ℝ) : EReal))
    (b : Fin 1024) (μ : ℝ) (hμ : val_main_v22 (F := Ideal) x0 x1 x2 x3 x4 x5 x6 x7 (ix1 b) = ((μ : ℝ) : EReal))
    (k : Fin 262144) :
    val_main_v26 (F := Ideal) x0 x1 x2 x3 x4 x5 x6 x7 (ix2 b k)
      = Ideal.exp (((D.score b k.val : ℝ) : EReal) - ((μ : ℝ) : EReal)) := by
  have e : idx_main_v23 (idx_main_v24 (ix2 b k)) = ix1 b :=
    funext fun a => Fin.ext (by match a with | ⟨0, _⟩ => rfl)
  rw [val_main_v26_apply, val_main_v25_apply, val_main_v24_apply, val_main_v23_apply, e, hμ, hS,
    Ideal.hostUnary_exp_def, Ideal.subf_def]

/-- The row's sum of exponentials, with the initial value `0` in front. -/
private theorem v27_at (b : Fin 1024) (μ : ℝ)
    (hE : ∀ k : Fin 262144, val_main_v26 (F := Ideal) x0 x1 x2 x3 x4 x5 x6 x7 (ix2 b k)
      = Ideal.exp (((D.score b k.val : ℝ) : EReal) - ((μ : ℝ) : EReal))) :
    val_main_v27 (F := Ideal) x0 x1 x2 x3 x4 x5 x6 x7 (ix1 b)
      = (0 : EReal) + ∑ k : Fin 262144, Ideal.exp (((D.score b k.val : ℝ) : EReal) - ((μ : ℝ) : EReal)) := by
  rw [val_main_v27_apply, val_main_cst_1_apply, Ideal.ofBits_def, Ideal.ofBits_zero_f32]
  refine congrArg ((0 : EReal) + ·) (Finset.sum_congr rfl fun k _ => ?_)
  have e : idx_main_v27 (ix1 b) k = ix2 b k :=
    funext fun a => Fin.ext (by match a with | ⟨0, _⟩ => rfl | ⟨1, _⟩ => rfl)
  rw [e, hE]

/-- A normalised weight: the exponentiated entry divided by the row's sum. -/
private theorem v30_at (b : Fin 1024) (μ : ℝ)
    (hE : ∀ k : Fin 262144, val_main_v26 (F := Ideal) x0 x1 x2 x3 x4 x5 x6 x7 (ix2 b k)
      = Ideal.exp (((D.score b k.val : ℝ) : EReal) - ((μ : ℝ) : EReal)))
    (k : Fin 262144) :
    val_main_v30 (F := Ideal) x0 x1 x2 x3 x4 x5 x6 x7 (ix2 b k)
      = Ideal.div (Ideal.exp (((D.score b k.val : ℝ) : EReal) - ((μ : ℝ) : EReal)))
          ((0 : EReal) + ∑ k' : Fin 262144, Ideal.exp (((D.score b k'.val : ℝ) : EReal) - ((μ : ℝ) : EReal))) := by
  have e : idx_main_v28 (idx_main_v29 (ix2 b k)) = ix1 b :=
    funext fun a => Fin.ext (by match a with | ⟨0, _⟩ => rfl)
  rw [val_main_v30_apply, val_main_v29_apply, val_main_v28_apply, e, v27_at D x0 x1 x2 x3 x4 x5 x6 x7 b μ hE, hE,
    Ideal.hostDivf_def]

end Stages

theorem ref_value (D : RealData) (x0 : (⟨S1024x2, .i32⟩ : BufTy).Contents (Elt Ideal)) (x1 : (⟨S32x2, .f32⟩ : BufTy).Contents (Elt Ideal)) (x2 : (⟨S32, .f32⟩ : BufTy).Contents (Elt Ideal)) (x3 : (⟨S32x32, .f32⟩ : BufTy).Contents (Elt Ideal)) (x4 : (⟨S32, .f32⟩ : BufTy).Contents (Elt Ideal)) (x5 : (⟨S64x32, .f32⟩ : BufTy).Contents (Elt Ideal)) (x6 : (⟨S64, .f32⟩ : BufTy).Contents (Elt Ideal)) (x7 : (⟨S262144x64, .f32⟩ : BufTy).Contents (Elt Ideal)) (x8 : (⟨S262144x512, .f32⟩ : BufTy).Contents (Elt Ideal))
    (h : Agree D (val_main_v17 (F := Ideal) x0 x1 x2 x3 x4 x5 x6) x7 x8) (b : Fin 1024) (c : Fin 512) :
    val_main_v31 (F := Ideal) x0 x1 x2 x3 x4 x5 x6 x7 x8 (ix2 b c) = ((D.attn b c : ℝ) : EReal) := by
  obtain ⟨hQ, hK, hV⟩ := h
  have hS := v19_at D x0 x1 x2 x3 x4 x5 x6 x7 hQ hK
  obtain ⟨μ, hμ⟩ := v22_real D x0 x1 x2 x3 x4 x5 x6 x7 hS b
  have hE := v26_at D x0 x1 x2 x3 x4 x5 x6 x7 hS b μ hμ
  have hW := v30_at D x0 x1 x2 x3 x4 x5 x6 x7 b μ hE
  rw [val_main_v31_apply]
  have ht : ∀ k : Fin 262144,
      val_main_v30 (F := Ideal) x0 x1 x2 x3 x4 x5 x6 x7 (lidx_main_v31 (ix2 b c) k) * x8 (ridx_main_v31 (ix2 b c) k)
        = Ideal.div (Ideal.exp (((D.score b k.val : ℝ) : EReal) - ((μ : ℝ) : EReal)))
            ((0 : EReal) + ∑ k' : Fin 262144, Ideal.exp (((D.score b k'.val : ℝ) : EReal) - ((μ : ℝ) : EReal)))
          * ((D.v k.val c : ℝ) : EReal) := fun k => by
    have e1 : lidx_main_v31 (ix2 b c) k = ix2 b k :=
      funext fun a => Fin.ext (by match a with | ⟨0, _⟩ => rfl | ⟨1, _⟩ => rfl)
    have e2 : ridx_main_v31 (ix2 b c) k = ix2 k c :=
      funext fun a => Fin.ext (by match a with | ⟨0, _⟩ => rfl | ⟨1, _⟩ => rfl)
    rw [e1, e2, hW, hV]
  rw [Finset.sum_congr rfl fun k _ => ht k]
  exact direct (fun n => D.score b n) (fun n => D.v n c) 262144 (by norm_num) μ 0 rfl

end Cert.MemAttn

end
-- ==== Proof.LibFinite.lean ====
/-
  Finiteness at the extended-real instance.

  At the instance where a float is an extended real and every float operation is the exact
  textbook one, a value is FINITE when it is (the image of) a real number.  This module defines
  that predicate on single values (`IsReal`) and on whole arrays (`AllReal`), the companion
  predicate "every entry is zero" (`AllZero`), and proves one preservation lemma per operation:
  elementwise arithmetic, selection, changes of format, constants, integer-to-float conversion,
  every re-indexing (broadcasts, reshapes, slices, padding, gather), scatter (accumulating and
  overwriting), a four-operand sort, and the two contractions (a finite sum of products of reals
  is a real).  Two composite facts close the module: the normaliser
  `where (deg > 0) (rsqrt deg) 0` is finite for EVERY `deg`, and `log_softmax` over an axis of
  extent one is identically zero on finite input.

  Every lemma has its hypotheses and its conclusion in the form `AllReal _` / `IsReal _` /
  `AllZero _`, so that it can be used by `apply`.
-/
import Idealize.ShloMosaic.PureOps
import Idealize.ShloMosaic.PureOps.Ideal
import Idealize.ShloMosaic.PureOps.Ideal.Laws
import Idealize.ShloMosaic.PureOps.Reduce
import Mathlib.Data.EReal.Operations
import Mathlib.Data.EReal.Inv
import Mathlib.Analysis.SpecialFunctions.Log.Basic
import Mathlib.Analysis.SpecialFunctions.Exp

noncomputable section

namespace Cert.LibFinite

open Idealize.ShloMosaic
open scoped BigOperators

/-! ## The predicates -/

/-- An extended real that is a real number. -/
def IsReal (x : EReal) : Prop := ∃ r : ℝ, x = (r : EReal)

/-- An array of extended reals all of whose entries are real numbers. -/
def AllReal {ι : Type} (v : ι → EReal) : Prop := ∀ i, IsReal (v i)

/-- An array of extended reals all of whose entries are zero. -/
def AllZero {ι : Type} (v : ι → EReal) : Prop := ∀ i, v i = 0

/-! ## Single values -/

theorem isReal_coe (r : ℝ) : IsReal (r : EReal) := ⟨r, rfl⟩
theorem isReal_zero : IsReal 0 := ⟨0, EReal.coe_zero.symm⟩
theorem isReal_one : IsReal 1 := ⟨1, EReal.coe_one.symm⟩
theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r
theorem isReal_iff {x : EReal} : IsReal x ↔ x ≠ ⊥ ∧ x ≠ ⊤ := by
  constructor
  · intro h; exact ⟨h.ne_bot, h.ne_top⟩
  · rintro ⟨hb, ht⟩; exact ⟨x.toReal, (EReal.coe_toReal ht hb).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
/-- A finite sum of real numbers is a real number. -/
theorem isReal_sum {κ : Type} (t : Finset κ) {f : κ → EReal} (hf : ∀ k ∈ t, IsReal (f k)) : IsReal (∑ k ∈ t, f k) := by
  classical
  induction t using Finset.induction_on with
  | empty => rw [Finset.sum_empty]; exact isReal_zero
  | insert a t ha ih =>
    rw [Finset.sum_insert ha]
    exact (hf a (Finset.mem_insert_self a t)).add (ih fun k hk => hf k (Finset.mem_insert_of_mem hk))

theorem AllZero.allReal {ι : Type} {v : ι → EReal} (h : AllZero v) : AllReal v := fun i => by rw [h i]; exact isReal_zero

/-! ## Elementwise operations -/

section Elementwise
variable {s : Shape} {φ : FTy}

theorem allReal_addf {x y : FVec Ideal s φ} (hx : AllReal x) (hy : AllReal y) : AllReal (addf (F := Ideal) x y) := fun i => (hx i).add (hy i)
theorem allReal_subf {x y : FVec Ideal s φ} (hx : AllReal x) (hy : AllReal y) : AllReal (subf (F := Ideal) x y) := fun i => (hx i).sub (hy i)
theorem allReal_mulf {x y : FVec Ideal s φ} (hx : AllReal x) (hy : AllReal y) : AllReal (mulf (F := Ideal) x y) := fun i => (hx i).mul (hy i)
theorem allReal_maximumf {x y : FVec Ideal s φ} (hx : AllReal x) (hy : AllReal y) :
    AllReal (maximumf (F := Ideal) x y) := fun i => (hx i).max (hy i)

theorem isReal_scalar_addf {x y : Ideal φ} (hx : IsReal x) (hy : IsReal y) : IsReal (Scalar.addf (F := Ideal) x y) := hx.add hy
theorem isReal_scalar_subf {x y : Ideal φ} (hx : IsReal x) (hy : IsReal y) : IsReal (Scalar.subf (F := Ideal) x y) := hx.sub hy
theorem isReal_scalar_mulf {x y : Ideal φ} (hx : IsReal x) (hy : IsReal y) : IsReal (Scalar.mulf (F := Ideal) x y) := hx.mul hy
theorem isReal_scalar_maximumf {x y : Ideal φ} (hx : IsReal x) (hy : IsReal y) :
    IsReal (Scalar.maximumf (F := Ideal) x y) := hx.max hy

/-- Lane-by-lane selection, under ANY mask: each result entry is an entry of one of the branches. -/
theorem allReal_select (c : IVec s 1) {a b : s.Idx → EReal} (ha : AllReal a) (hb : AllReal b) :
    AllReal (select c a b) := by
  intro i
  show IsReal (if c i = 1 then a i else b i)
  split
  · exact ha i
  · exact hb i
/-- Selection on a scalar condition, between whole arrays. -/
theorem allReal_scalar_select {ι : Type} (c : BitVec 1) {a b : ι → EReal} (ha : AllReal a) (hb : AllReal b) :
    AllReal (Scalar.select c a b) := by
  show AllReal (if c = 1 then a else b)
  split
  · exact ha
  · exact hb

/-- A change of format is the identity at this instance. -/
theorem allReal_truncf (ψ : FTy) {x : FVec Ideal s φ} (h : ψ.bits < φ.bits) (hx : AllReal x) :
    AllReal (truncf (F := Ideal) ψ x h) := fun i => hx i
theorem allReal_extf (ψ : FTy) {x : FVec Ideal s φ} (h : φ.bits < ψ.bits) (hx : AllReal x) :
    AllReal (extf (F := Ideal) ψ x h) := fun i => hx i
theorem allReal_id {ι : Type} {x : ι → EReal} (hx : AllReal x) : AllReal (id x) := hx
theorem allZero_id {ι : Type} {x : ι → EReal} (hx : AllZero x) : AllZero (id x) := hx

end Elementwise

/-! ## Constants and conversions -/

section Constants
variable {s : Shape}

theorem ofBits_f32_zero : Scalar.ofBits (F := Ideal) .f32 0x00000000#32 = 0 := Ideal.ofBits_zero_f32
theorem ofBits_f32_one : Scalar.ofBits (F := Ideal) .f32 0x3F800000#32 = 1 := by
  show Ideal.ofBits .f32 0x3F800000#32 = 1
  simp [Ideal.ofBits, Ideal.ieee, -EReal.coe_mul]; norm_num
theorem isReal_ofBits_zero : IsReal (Scalar.ofBits (F := Ideal) .f32 0x00000000#32) := by rw [ofBits_f32_zero]; exact isReal_zero
theorem isReal_ofBits_one : IsReal (Scalar.ofBits (F := Ideal) .f32 0x3F800000#32) := by rw [ofBits_f32_one]; exact isReal_one
theorem allZero_constant_zero (s : Shape) : AllZero (constant (F := Ideal) s .f32 0x00000000#32) := fun _ => ofBits_f32_zero
theorem allReal_constant_zero (s : Shape) : AllReal (constant (F := Ideal) s .f32 0x00000000#32) := fun _ => isReal_ofBits_zero
theorem allReal_constant_one (s : Shape) : AllReal (constant (F := Ideal) s .f32 0x3F800000#32) := fun _ => isReal_ofBits_one
/-- The splat of one value. -/
theorem allReal_broadcast (t : Shape) {x : EReal} (hx : IsReal x) : AllReal (broadcast t x) := fun _ => hx
theorem allZero_broadcast (t : Shape) {x : EReal} (hx : x = 0) : AllZero (broadcast t x) := fun _ => hx
theorem allReal_broadcast_zero (t : Shape) : AllReal (broadcast t (Scalar.ofBits (F := Ideal) .f32 0x00000000#32)) := fun _ => isReal_ofBits_zero
theorem allReal_broadcast_one (t : Shape) : AllReal (broadcast t (Scalar.ofBits (F := Ideal) .f32 0x3F800000#32)) := fun _ => isReal_ofBits_one
/-- An integer read as a float is that integer. -/
theorem allReal_sitofp (φ : FTy) {w : Nat} (x : IVec s w) : AllReal (sitofp (F := Ideal) φ x) := fun i => ⟨((x i).toInt : ℝ), rfl⟩

end Constants

/-! ## Re-indexings: every result entry is an operand entry (or, for a pad, the pad value) -/

section Layout
variable {s t : Shape}

theorem allReal_broadcastInDim (dims : Fin s.rank → Fin t.rank) (h : s.BroadcastsInDim t dims) {x : s.Idx → EReal}
    (hx : AllReal x) : AllReal (broadcastInDim t dims h x) := fun _ => hx _
theorem allZero_broadcastInDim (dims : Fin s.rank → Fin t.rank) (h : s.BroadcastsInDim t dims) {x : s.Idx → EReal}
    (hx : AllZero x) : AllZero (broadcastInDim t dims h x) := fun _ => hx _
theorem allReal_broadcastTo {x : s.Idx → EReal} (h : s.Broadcasts t) (hx : AllReal x) : AllReal (broadcastTo t x h) := fun _ => hx _
theorem allReal_shapeCast {x : s.Idx → EReal} (h : s.ShapeCasts t) (hx : AllReal x) : AllReal (shapeCast t x h) := fun _ => hx _
theorem allReal_extractStridedSlice (off : Fin s.rank → Nat) {x : s.Idx → EReal} (h : s.Slices off t) (hx : AllReal x) :
    AllReal (extractStridedSlice t off x h) := fun _ => hx _
/-- Padding with the one element of a rank-zero operand. -/
theorem allReal_pad (lo hi interior : Fin s.rank → Nat) {x : s.Idx → EReal} {u : Shape} {v : u.Idx → EReal}
    (h : s.Pads lo hi interior t) (hu : 0 < u.numel) (hx : AllReal x) (hv : AllReal v) :
    AllReal (pad t lo hi interior x v h hu) := by
  intro j
  unfold pad
  split
  · exact hx _
  · exact hv _
/-- A gather, for ANY index operand: each result entry is the operand's entry at the computed index. -/
theorem allReal_gather {si : Shape} {w : Nat} (d : GatherDims s si t) {x : s.Idx → EReal} (idx : IVec si w)
    (hx : AllReal x) : AllReal (Host.gather d x idx) := fun _ => hx _

end Layout

/-! ## Scatter and sort -/

section Indexing
variable {s si u : Shape} {w : Nat}

/-- The accumulating scatter: each operand entry plus a finite sum of update entries. -/
theorem allReal_scatterAdd {φ : FTy} (d : ScatterDims s si u) {x : FVec Ideal s φ} (idx : IVec si w) {upd : FVec Ideal u φ}
    (hx : AllReal x) (hu : AllReal upd) : AllReal (Host.scatterAdd (F := Ideal) d x idx upd) := by
  intro i
  show IsReal (x i + ∑ j ∈ Finset.univ.filter (fun j => d.resultIdx? j idx = some i), upd j)
  exact (hx i).add (isReal_sum _ fun k _ => hu k)
/-- A scatter whose body is any operation that keeps real numbers real. -/
theorem allReal_scatter (d : ScatterDims s si u) (f : EReal → EReal → EReal)
    (hf : ∀ a b, IsReal a → IsReal b → IsReal (f a b)) {x : s.Idx → EReal} (idx : IVec si w) {upd : u.Idx → EReal}
    (hx : AllReal x) (hu : AllReal upd) : AllReal (Host.scatter d f x idx upd) := by
  unfold Host.scatter
  generalize List.finRange u.numel = l
  induction l generalizing x with
  | nil => exact hx
  | cons n l ih =>
    rw [List.foldl_cons]
    apply ih
    split
    · intro i'
      show IsReal (if i' = _ then _ else _)
      split
      · exact hf _ _ (hx _) (hu _)
      · exact hx _
    · exact hx
/-- The overwriting scatter (its body returns the update): each result entry is an operand entry
    or an update entry. -/
theorem allReal_scatter_set (d : ScatterDims s si u) {x : s.Idx → EReal} (idx : IVec si w) {upd : u.Idx → EReal}
    (hx : AllReal x) (hu : AllReal upd) : AllReal (Host.scatter d (fun _ b => b) x idx upd) := allReal_scatter d _ (fun _ _ _ hb => hb) idx hx hu
/-- A sort of four operands permutes each of them: the fourth output's entries are entries of the
    fourth input, for any comparator and any other three operands. -/
theorem allReal_sort4_4 (s : Shape) (d : Nat) {α β γ : Type} (cmp : α × β × γ × EReal → α × β × γ × EReal → BitVec 1)
    (x : s.Idx → α) (y : s.Idx → β) (z : s.Idx → γ) {v : s.Idx → EReal} (hv : AllReal v) :
    AllReal (Host.sort4 s d cmp x y z v).2.2.2 := by
  unfold Host.sort4
  split
  · intro j; exact hv _
  · exact hv

end Indexing

/-! ## Contractions -/

section Contract
variable {sl sr so : Shape} {φ₁ φ₂ : FTy}

theorem allReal_matmul (d : DotDims sl sr so) (prec : Option ContractPrecision) {lhs : FVec Ideal sl φ₁}
    {rhs : FVec Ideal sr φ₂} {acc : FVec Ideal so .f32} (hl : AllReal lhs) (hr : AllReal rhs) (ha : AllReal acc) :
    AllReal (matmul (F := Ideal) d prec lhs rhs acc) := by
  intro j
  show IsReal (acc j + ∑ k : d.contr.Idx, lhs (d.lhsIdx j k) * rhs (d.rhsIdx j k))
  exact (ha j).add (isReal_sum _ fun k _ => (hl _).mul (hr _))
theorem allReal_dotGeneral (d : DotDims sl sr so) (prec : Option ContractPrecision) {lhs : FVec Ideal sl φ₁}
    {rhs : FVec Ideal sr φ₂} (hl : AllReal lhs) (hr : AllReal rhs) :
    AllReal (Host.dotGeneral (F := Ideal) d prec lhs rhs) := by
  intro j
  show IsReal ((0 : EReal) + ∑ k : d.contr.Idx, lhs (d.lhsIdx j k) * rhs (d.rhsIdx j k))
  exact isReal_zero.add (isReal_sum _ fun k _ => (hl _).mul (hr _))

end Contract

/-! ## The degree normaliser -/

/-- `where (deg > 0) (rsqrt deg) 0` is finite for EVERY `deg`: where `deg > 0` the reciprocal square
    root is a positive real (and `0` at `+∞`); elsewhere the chosen branch is `0`.  The two zero arrays
    (the one compared against, the one selected) may be different terms. -/
theorem allReal_dinv {s : Shape} (deg : FVec Ideal s .f32) {z₁ z₂ : FVec Ideal s .f32} (hz₁ : AllZero z₁) (hz₂ : AllZero z₂) :
    AllReal (select (cmpf (F := Ideal) .ogt deg z₁) (Host.rsqrt (F := Ideal) deg) z₂) := by
  intro i
  show IsReal (if Ideal.cmp .ogt (deg i) (z₁ i) = 1 then Ideal.rsqrt (deg i) else z₂ i)
  rw [hz₁ i, hz₂ i]
  generalize deg i = a
  by_cases h : (0 : EReal) < a
  · have hc : Ideal.cmp .ogt a 0 = 1 := by simp [Ideal.cmp, h]
    rw [if_pos hc]
    induction a using EReal.rec with
    | bot => exact absurd h (by simp)
    | top => rw [Ideal.rsqrt_top]; exact isReal_zero
    | coe r =>
      have hr : 0 < r := by exact_mod_cast h
      rw [Ideal.rsqrt_coe, if_neg (not_lt.mpr hr.le), if_neg hr.ne']
      exact isReal_coe _
  · have hc : ¬ Ideal.cmp .ogt a 0 = 1 := by simp [Ideal.cmp, h]
    rw [if_neg hc]
    exact isReal_zero

/-! ## `log_softmax` over an axis of extent one -/

abbrev Sh0 : Shape := ⟨0, ![]⟩
abbrev ShN : Shape := ⟨1, ![200000]⟩
abbrev ShNx1 : Shape := ⟨2, ![200000, 1]⟩

/-- `log_softmax` along axis 1 of a `200000 × 1` array (`ShNx1`; `ShN` its reduced shape, `Sh0` the rank-zero shape of the initial values), operation by operation: the maximum along the
    axis from `-∞`, its maximum with `-∞`, the shifted argument, its exponential, the sum along the
    axis from `0`, its logarithm, the difference. -/
def logSoftmax1 (h : FVec Ideal ShNx1 .f32) (hr : ShNx1.ReducesTo [1] ShN) (hu : 0 < Sh0.numel)
    (hb0 : Sh0.BroadcastsInDim ShN (![] : Fin 0 → Fin ShN.rank))
    (hb1 : ShN.BroadcastsInDim ShNx1 (![0] : Fin 1 → Fin ShNx1.rank)) : FVec Ideal ShNx1 .f32 :=
  let cst : FVec Ideal Sh0 .f32 := constant (F := Ideal) Sh0 .f32 0xFF800000#32
  let v0 : FVec Ideal ShN .f32 := Host.reduce (FloatOps.maximumf (F := Ideal) (φ := .f32)) h cst hr hu
  let cst_0 : FVec Ideal Sh0 .f32 := constant (F := Ideal) Sh0 .f32 0xFF800000#32
  let v1 : FVec Ideal ShN .f32 := broadcastInDim ShN ![] hb0 cst_0
  let v2 : FVec Ideal ShN .f32 := maximumf (F := Ideal) v1 v0
  let v3 : FVec Ideal ShNx1 .f32 := broadcastInDim ShNx1 ![0] hb1 v2
  let v4 : FVec Ideal ShNx1 .f32 := subf (F := Ideal) h v3
  let v5 : FVec Ideal ShNx1 .f32 := Host.exp (F := Ideal) v4
  let cst_1 : FVec Ideal Sh0 .f32 := constant (F := Ideal) Sh0 .f32 0x00000000#32
  let v6 : FVec Ideal ShN .f32 := Host.reduceAdd (F := Ideal) v5 cst_1 hr hu
  let v7 : FVec Ideal ShNx1 .f32 := broadcastInDim ShNx1 ![0] hb1 v6
  let v8 : FVec Ideal ShNx1 .f32 := Host.log (F := Ideal) v7
  subf (F := Ideal) v4 v8

/-- On finite input, `log_softmax` over an axis of extent one is identically zero: the maximum is the
    entry itself, the shifted argument `0`, its exponential `1`, the sum `1`, its logarithm `0`. -/
theorem logSoftmax1_eq_zero {h : FVec Ideal ShNx1 .f32} (hr : ShNx1.ReducesTo [1] ShN) (hu : 0 < Sh0.numel)
    (hb0 : Sh0.BroadcastsInDim ShN (![] : Fin 0 → Fin ShN.rank))
    (hb1 : ShN.BroadcastsInDim ShNx1 (![0] : Fin 1 → Fin ShNx1.rank)) (hh : AllReal h) :
    logSoftmax1 h hr hu hb0 hb1 = fun _ => ((0 : ℝ) : EReal) := by
  have hR : ShNx1.Reduces [1] ShN := ⟨hr.1, by decide, hr.2⟩
  have hbot : Ideal.ofBits .f32 0xFF800000#32 = ⊥ := by simp [Ideal.ofBits, Ideal.ieee]
  -- the reduced axis has one coordinate
  have hu1 : (Finset.univ : Finset (Fin (ShNx1.size 1))) = {⟨0, by decide⟩} := by
    ext k
    simp only [Finset.mem_univ, Finset.mem_singleton, true_iff]
    exact Fin.ext (by show k.val = 0; have hk : k.val < 1 := k.isLt; omega)
  -- a full index is its reduced index with the coordinate 0 put back
  have hlift : ∀ j : ShNx1.Idx, hR.lift (hR.drop j) ⟨0, by decide⟩ = j := by
    intro j
    have h1 : j 1 = (⟨0, by decide⟩ : Fin (ShNx1.size 1)) :=
      Fin.ext (by show (j 1).val = 0; have hk : (j 1).val < 1 := (j 1).isLt; omega)
    calc hR.lift (hR.drop j) ⟨0, by decide⟩ = hR.lift (hR.drop j) (j 1) := by rw [h1]
      _ = j := hR.lift_drop j
  have hdrop0 : ∀ j : ShNx1.Idx, ((hR.drop j) 0).val = (j 0).val := fun j => hR.drop_apply_val_of_eq j 0 0
  -- broadcasting a reduced array back reads it at the reduced index
  have hb : ∀ (x : FVec Ideal ShN .f32) (j : ShNx1.Idx), broadcastInDim ShNx1 ![0] hb1 x j = x (hR.drop j) := by
    intro x j
    unfold broadcastInDim
    refine congrArg x (funext fun a => Fin.ext ?_)
    have ha : a = 0 := Fin.ext (by show a.val = 0; have hk : a.val < 1 := a.isLt; omega)
    subst ha
    rw [dif_neg (by decide)]
    exact (hdrop0 j).symm
  -- the maximum along the axis, from -∞, is the one entry
  have hv0 : ∀ j' : ShN.Idx,
      Host.reduce (FloatOps.maximumf (F := Ideal) (φ := .f32)) h (constant (F := Ideal) Sh0 .f32 0xFF800000#32) hr hu j'
        = h (hR.lift j' ⟨0, by decide⟩) := by
    intro j'
    rw [Host.reduce_eq_fold_single (FloatOps.maximumf (F := Ideal) (φ := .f32)) h _ hr hR hu j', hu1, Finset.fold_singleton]
    show max (h (hR.lift j' ⟨0, by decide⟩)) (Ideal.ofBits .f32 0xFF800000#32) = _
    rw [hbot, max_bot_right]
  -- the sum along the axis, from 0, is the one entry
  have hsum : ∀ (x : FVec Ideal ShNx1 .f32) (j' : ShN.Idx),
      Host.reduceAdd (F := Ideal) x (constant (F := Ideal) Sh0 .f32 0x00000000#32) hr hu j' = x (hR.lift j' ⟨0, by decide⟩) := by
    intro x j'
    show Ideal.hostReduceAdd hr x (Ideal.ofBits .f32 0x00000000#32) j' = _
    rw [Ideal.hostReduceAdd_single hr hR, Ideal.ofBits_zero_f32, zero_add, hu1, Finset.sum_singleton]
  let V0 : FVec Ideal ShN .f32 :=
    Host.reduce (FloatOps.maximumf (F := Ideal) (φ := .f32)) h (constant (F := Ideal) Sh0 .f32 0xFF800000#32) hr hu
  let V2 : FVec Ideal ShN .f32 :=
    maximumf (F := Ideal) (broadcastInDim ShN ![] hb0 (constant (F := Ideal) Sh0 .f32 0xFF800000#32)) V0
  let V4 : FVec Ideal ShNx1 .f32 := subf (F := Ideal) h (broadcastInDim ShNx1 ![0] hb1 V2)
  let V6 : FVec Ideal ShN .f32 :=
    Host.reduceAdd (F := Ideal) (Host.exp (F := Ideal) V4) (constant (F := Ideal) Sh0 .f32 0x00000000#32) hr hu
  have hV2 : ∀ j' : ShN.Idx, V2 j' = h (hR.lift j' ⟨0, by decide⟩) := by
    intro j'
    show max (Ideal.ofBits .f32 0xFF800000#32) (V0 j') = _
    rw [hbot, max_bot_left]
    exact hv0 j'
  -- the shifted argument is 0 everywhere
  have hV4 : ∀ i : ShNx1.Idx, V4 i = 0 := by
    intro i
    show h i - broadcastInDim ShNx1 ![0] hb1 V2 i = 0
    rw [hb V2 i, hV2, hlift]
    obtain ⟨r, hri⟩ := hh i
    rw [hri, ← EReal.coe_sub, sub_self, EReal.coe_zero]
  have hV5 : ∀ i : ShNx1.Idx, Host.exp (F := Ideal) V4 i = 1 := by
    intro i
    show Ideal.exp (V4 i) = 1
    rw [hV4 i, ← EReal.coe_zero, Ideal.exp_coe, Real.exp_zero, EReal.coe_one]
  have hV6 : ∀ j' : ShN.Idx, V6 j' = 1 := by
    intro j'
    show Host.reduceAdd (F := Ideal) (Host.exp (F := Ideal) V4) (constant (F := Ideal) Sh0 .f32 0x00000000#32) hr hu j' = 1
    rw [hsum, hV5]
  have e : logSoftmax1 h hr hu hb0 hb1
      = subf (F := Ideal) V4 (Host.log (F := Ideal) (broadcastInDim ShNx1 ![0] hb1 V6)) := rfl
  rw [e]
  funext j
  simp only [subf, Host.log, Ideal.subf_def, Ideal.hostUnary_log_def]
  rw [hV4 j, hb V6 j, hV6, ← EReal.coe_one, Ideal.log_coe, if_neg (by norm_num), Real.log_one, EReal.coe_zero, sub_zero]

end Cert.LibFinite

end
-- ==== Proof.Finite.lean ====
/-
  Finiteness of the inputs and of the query network's output.

  The precondition says that every entry of every float input is smaller in absolute value than
  `+∞`, that is, is a real number.  The query network (integer-to-float conversion, three matrix
  products with bias, two rectifications) keeps real numbers real.
-/
import proofs.«405542_j14559939133709_3_alg».proof.Proof.Gen.ReferenceIdeal.Read
import proofs.«405542_j14559939133709_3_alg».proof.Proof.Gen.Pre_finite_inputs
import proofs.«405542_j14559939133709_3_alg».proof.Proof.LibFinite
import Idealize.ShloMosaic.Lib.ReduceAll
import Idealize.ShloMosaic.Lib.ValueIdx

noncomputable section

namespace Cert.MemAttn

open Idealize.ShloMosaic Cert.LibFinite

/-- A transposition reads its operand at a permuted index, so it keeps real entries real. -/
theorem allReal_transpose {s t : Shape} (perm : List (Fin s.rank)) (h : s.Transposes perm t) {x : s.Idx → EReal}
    (hx : AllReal x) : AllReal (transpose t perm x h) := fun _ => hx _

/-- The bit pattern of positive infinity denotes the top element of the extended reals. -/
private theorem ofBits_inf : Ideal.ofBits .f32 0x7F800000#32 = ⊤ := by
  simp [Ideal.ofBits, Ideal.ieee]

/-- An extended real whose absolute value `max x (-x)` is below positive infinity is a real number:
    `x < ⊤` rules out the top element and `-x < ⊤` rules out the bottom one. -/
private theorem isReal_of_abs_lt_inf {x : EReal}
    (h : Ideal.cmp .olt (max x (-x)) (Ideal.ofBits .f32 0x7F800000#32) = 1#1) : IsReal x := by
  rw [ofBits_inf] at h
  have hlt : max x (-x) < ⊤ := by
    by_contra hn
    simp [Ideal.cmp, hn] at h
  rw [max_lt_iff] at hlt
  induction x using EReal.rec with
  | bot => exact absurd hlt.2 (by simp)
  | top => exact absurd hlt.1 (by simp)
  | coe r => exact isReal_coe r

/-- The rank-zero shape has exactly one index. -/
private instance : Subsingleton Cert.Pre_finite_inputs.S_.Idx := ⟨fun a b => funext fun d => d.elim0⟩

/-- One conjunct of the precondition, read back, for an array of any shape: if the conjunction over
    every index of "the absolute value of the entry is below positive infinity" is true, then every
    entry is a real number.  A conjunction that is true was true at each index, and the comparison
    at an index is the element fact above. -/
private theorem allReal_of_all_abs_lt_inf {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf (F := Ideal) .olt (Host.absf (F := Ideal) x)
            (broadcastInDim s ![] hb (constant (F := Ideal) Cert.Pre_finite_inputs.S_ .f32 0x7F800000#32)))
          (constantI Cert.Pre_finite_inputs.S_ 1 1#1) hr hu ValueIdx.ix0 = 1#1) :
    AllReal x := fun i =>
  isReal_of_abs_lt_inf (Host.reduce_andi_all _ _ hr hu ValueIdx.ix0 e i)

/-- The precondition at the extended reals: every float input has only real entries. -/
theorem pre_real (x0 : IVec Cert.Pre_finite_inputs.S1024x2 32) (x1 : FVec Ideal Cert.Pre_finite_inputs.S32x2 .f32) (x2 : FVec Ideal Cert.Pre_finite_inputs.S32 .f32)
    (x3 : FVec Ideal Cert.Pre_finite_inputs.S32x32 .f32) (x4 : FVec Ideal Cert.Pre_finite_inputs.S32 .f32) (x5 : FVec Ideal Cert.Pre_finite_inputs.S64x32 .f32)
    (x6 : FVec Ideal Cert.Pre_finite_inputs.S64 .f32) (x7 : FVec Ideal Cert.Pre_finite_inputs.S262144x64 .f32) (x8 : FVec Ideal Cert.Pre_finite_inputs.S262144x512 .f32)
    (h : Cert.Pre_finite_inputs.fn (F := Ideal) x0 x1 x2 x3 x4 x5 x6 x7 x8 = (fun _ => 1#1)) :
    AllReal x1 ∧ AllReal x2 ∧ AllReal x3 ∧ AllReal x4 ∧ AllReal x5 ∧ AllReal x6 ∧ AllReal x7 ∧ AllReal x8 := by
  -- the predicate at its one index is the conjunction, associated to the left, of the eight
  -- per-input conjuncts
  have c8 := congrFun h ValueIdx.ix0
  dsimp only [Cert.Pre_finite_inputs.fn, Cert.Pre_finite_inputs.fn_part1, Cert.Pre_finite_inputs.fn_part2] at c8
  obtain ⟨c7, e8⟩ := IntOp.andi_eq_one.1 c8
  obtain ⟨c6, e7⟩ := IntOp.andi_eq_one.1 c7
  obtain ⟨c5, e6⟩ := IntOp.andi_eq_one.1 c6
  obtain ⟨c4, e5⟩ := IntOp.andi_eq_one.1 c5
  obtain ⟨c3, e4⟩ := IntOp.andi_eq_one.1 c4
  obtain ⟨c2, e3⟩ := IntOp.andi_eq_one.1 c3
  obtain ⟨e1, e2⟩ := IntOp.andi_eq_one.1 c2
  exact ⟨allReal_of_all_abs_lt_inf x1 _ _ _ e1, allReal_of_all_abs_lt_inf x2 _ _ _ e2,
    allReal_of_all_abs_lt_inf x3 _ _ _ e3, allReal_of_all_abs_lt_inf x4 _ _ _ e4,
    allReal_of_all_abs_lt_inf x5 _ _ _ e5, allReal_of_all_abs_lt_inf x6 _ _ _ e6,
    allReal_of_all_abs_lt_inf x7 _ _ _ e7, allReal_of_all_abs_lt_inf x8 _ _ _ e8⟩

open Cert.ReferenceIdeal Cert.ReferenceIdeal.Gen Cert.ReferenceIdeal.Read in
/-- The query network's output is real when its float inputs are. -/
theorem q_real (x0 : (⟨S1024x2, .i32⟩ : BufTy).Contents (Elt Ideal)) (x1 : (⟨S32x2, .f32⟩ : BufTy).Contents (Elt Ideal)) (x2 : (⟨S32, .f32⟩ : BufTy).Contents (Elt Ideal)) (x3 : (⟨S32x32, .f32⟩ : BufTy).Contents (Elt Ideal)) (x4 : (⟨S32, .f32⟩ : BufTy).Contents (Elt Ideal)) (x5 : (⟨S64x32, .f32⟩ : BufTy).Contents (Elt Ideal)) (x6 : (⟨S64, .f32⟩ : BufTy).Contents (Elt Ideal))
    (h1 : AllReal x1) (h2 : AllReal x2) (h3 : AllReal x3) (h4 : AllReal x4) (h5 : AllReal x5) (h6 : AllReal x6) :
    AllReal (val_main_v17 (F := Ideal) x0 x1 x2 x3 x4 x5 x6) := by
  -- first layer: the integer input read as floats, times the transposed weight, plus the bias, rectified
  have r0 : AllReal (val_main_v0 (F := Ideal) x0) := by
    unfold val_main_v0; exact allReal_sitofp .f32 x0
  have r1 : AllReal (val_main_v1 (F := Ideal) x1) := by
    unfold val_main_v1; exact allReal_transpose _ _ h1
  have r2 : AllReal (val_main_v2 (F := Ideal) x0 x1) := by
    unfold val_main_v2; exact allReal_dotGeneral _ _ r0 r1
  have r3 : AllReal (val_main_v3 (F := Ideal) x2) := by
    unfold val_main_v3; exact allReal_broadcastInDim _ _ h2
  have r4 : AllReal (val_main_v4 (F := Ideal) x2) := by
    unfold val_main_v4; exact allReal_broadcastInDim _ _ r3
  have r5 : AllReal (val_main_v5 (F := Ideal) x0 x1 x2) := by
    unfold val_main_v5; exact allReal_addf r2 r4
  have z0 : AllReal (val_main_call0_v0 (F := Ideal)) := by
    unfold val_main_call0_v0 val_main_call0_cst
    exact allReal_broadcastInDim _ _ (allReal_constant_zero _)
  have r6 : AllReal (val_main_v6 (F := Ideal) x0 x1 x2) := by
    unfold val_main_v6; exact allReal_maximumf r5 z0
  -- second layer
  have r7 : AllReal (val_main_v7 (F := Ideal) x3) := by
    unfold val_main_v7; exact allReal_transpose _ _ h3
  have r8 : AllReal (val_main_v8 (F := Ideal) x0 x1 x2 x3) := by
    unfold val_main_v8; exact allReal_dotGeneral _ _ r6 r7
  have r9 : AllReal (val_main_v9 (F := Ideal) x4) := by
    unfold val_main_v9; exact allReal_broadcastInDim _ _ h4
  have r10 : AllReal (val_main_v10 (F := Ideal) x4) := by
    unfold val_main_v10; exact allReal_broadcastInDim _ _ r9
  have r11 : AllReal (val_main_v11 (F := Ideal) x0 x1 x2 x3 x4) := by
    unfold val_main_v11; exact allReal_addf r8 r10
  have z1 : AllReal (val_main_call1_v0 (F := Ideal)) := by
    unfold val_main_call1_v0 val_main_call1_cst
    exact allReal_broadcastInDim _ _ (allReal_constant_zero _)
  have r12 : AllReal (val_main_v12 (F := Ideal) x0 x1 x2 x3 x4) := by
    unfold val_main_v12; exact allReal_maximumf r11 z1
  -- third layer: no rectification
  have r13 : AllReal (val_main_v13 (F := Ideal) x5) := by
    unfold val_main_v13; exact allReal_transpose _ _ h5
  have r14 : AllReal (val_main_v14 (F := Ideal) x0 x1 x2 x3 x4 x5) := by
    unfold val_main_v14; exact allReal_dotGeneral _ _ r12 r13
  have r15 : AllReal (val_main_v15 (F := Ideal) x6) := by
    unfold val_main_v15; exact allReal_broadcastInDim _ _ h6
  have r16 : AllReal (val_main_v16 (F := Ideal) x6) := by
    unfold val_main_v16; exact allReal_broadcastInDim _ _ r15
  unfold val_main_v17
  exact allReal_addf r14 r16

end Cert.MemAttn

end
-- ==== Proof.lean ====
/-
  A memory-attention kernel against its jnp reference: `softmax (q · Kᵀ) · V` over a memory of 262144
  slots, where `q` (1024 × 64) is the output of a small query network of the integer input.

  The kernel streams the memory in tiles of 2048 slots.  Its 2 × 64 grid makes two sweeps of 64
  steps, one per half of the memory; each sweep carries, per query row, a running maximum, a
  running sum of weights and a running weighted sum of value rows, rescaled whenever the maximum
  moves.  After the call the host merges the two sweeps' triples by the same rescaling and divides.
  The reference forms all scores, normalises each row's exponentials by their sum, and multiplies
  by the values.  On finite inputs both are the attention row
  `(∑ n, exp (score n) · v n) / (∑ n, exp (score n))`: the weights `exp (score n - μ)` at any
  reference level `μ` are the plain weights times the common factor `exp (-μ)`, which cancels in
  either quotient.  Finiteness is what makes the rescaling laws valid on the extended reals; the
  sweep's start, a maximum of `-∞` with both sums `0`, is handled on its own: its rescaling factor
  is `exp (-∞) = 0`.

  The modules: OnlineSoftmax (the algebra), Spec (the real data and the attention row), Step /
  StepAt (one step of the sweep on whole vectors and at an entry), Pieces and Sweep (what each
  grid point leaves in the carried arrays), Blocks (the tiles as rows of the arrays), Invariant (the
  sweep's state by induction on the grid point), Outputs (the three arrays the call leaves), Tail
  (the host lines around the call), KernelValue (the kernel program's result), RefRead (the
  reference's result), Finite and LibFinite (the inputs and the query network's output are real).
-/
import proofs.«405542_j14559939133709_3_alg».proof.Defs
import proofs.«405542_j14559939133709_3_alg».proof.Proof.Gen.Kernel
import proofs.«405542_j14559939133709_3_alg».proof.Proof.Gen.Kernel.Skeleton
import proofs.«405542_j14559939133709_3_alg».proof.Proof.Gen.Kernel.Launch
import proofs.«405542_j14559939133709_3_alg».proof.Proof.Gen.Kernel.Points
import proofs.«405542_j14559939133709_3_alg».proof.Proof.Gen.Kernel.Frame
import proofs.«405542_j14559939133709_3_alg».proof.Proof.Gen.KernelIdeal
import proofs.«405542_j14559939133709_3_alg».proof.Proof.Gen.KernelIdeal.Skeleton
import proofs.«405542_j14559939133709_3_alg».proof.Proof.Gen.KernelIdeal.Launch
import proofs.«405542_j14559939133709_3_alg».proof.Proof.Gen.KernelIdeal.Points
import proofs.«405542_j14559939133709_3_alg».proof.Proof.Gen.KernelIdeal.Frame
import proofs.«405542_j14559939133709_3_alg».proof.Proof.Gen.ReferenceIdeal
import proofs.«405542_j14559939133709_3_alg».proof.Proof.Gen.Pre_finite_inputs
import proofs.«405542_j14559939133709_3_alg».proof.Proof.Gen.ReferenceIdeal.Run
import proofs.«405542_j14559939133709_3_alg».proof.Proof.Gen.ReferenceIdeal.Read
import proofs.«405542_j14559939133709_3_alg».proof.Proof.KernelValue
import proofs.«405542_j14559939133709_3_alg».proof.Proof.RefRead
import proofs.«405542_j14559939133709_3_alg».proof.Proof.Finite
import Idealize.ShloMosaic.Adequacy
import Idealize.ShloMosaic.Init

set_option maxRecDepth 16384

noncomputable section

namespace Cert.Proof

open Idealize.ShloMosaic Idealize.ShloMosaic.ValueIdx Idealize.SL.Sem Cert.MemAttn Cert.LibFinite

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Under the precondition the arrays the kernel call stages — the query network's output, the
    keys and the values — are the images of real data, on every core. -/
theorem real_data (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ D : RealData, Agree D (qarr m c) (karr m c) (varr m c) := by
  obtain ⟨h1, h2, h3, h4, h5, h6, h7, h8⟩ := pre_real _ _ _ _ _ _ _ _ _ (hpre c)
  refine exists_agree _ _ _ ?_ ?_ ?_
  · show AllReal (qarr m c)
    show AllReal (Cert.KernelIdeal.Gen.V m c Cert.KernelIdeal.main_v18 : Cert.KernelIdeal.S1024x64.Idx → EReal)
    rw [kernel_q m c]
    exact q_real _ _ _ _ _ _ _ h1 h2 h3 h4 h5 h6
  · show AllReal (Cert.KernelIdeal.Gen.V m c Cert.KernelIdeal.main_arg7 : Cert.KernelIdeal.S262144x64.Idx → EReal)
    rw [Cert.KernelIdeal.Gen.V_main_arg7 m c]
    exact h7
  · show AllReal (Cert.KernelIdeal.Gen.V m c Cert.KernelIdeal.main_arg8 : Cert.KernelIdeal.S262144x512.Idx → EReal)
    rw [Cert.KernelIdeal.Gen.V_main_arg8 m c]
    exact h8

/-- Both programs, at the extended reals and from memories that agree on the arguments, end with
    the attention rows of the same real data in their result arrays. -/
theorem algebraic : Cert.algebraic_KernelIdeal_ReferenceIdeal := by
  intro m ρ m' ρ' hpre hagree
  choose D hD using real_data m hpre
  refine ⟨fun c i => (((D c).attn (i 0) (i 1) : ℝ) : EReal), ?_, ?_⟩
  · refine (θ_run Cert.KernelIdeal.defs _ _).mono (fun r h c => ?_) (Cert.KernelIdeal.Gen.run_main m ρ)
    refine ⟨?_,
      (((h c).2 Cert.KernelIdeal.main_arg0 (Pipeline.mem_restRefs_of Cert.KernelIdeal.main_arg0 (by decide) (by decide))).trans (Cert.KernelIdeal.Gen.W_main_arg0 m (Cert.KernelIdeal.Gen.dats m) c)),
      (((h c).2 Cert.KernelIdeal.main_arg1 (Pipeline.mem_restRefs_of Cert.KernelIdeal.main_arg1 (by decide) (by decide))).trans (Cert.KernelIdeal.Gen.W_main_arg1 m (Cert.KernelIdeal.Gen.dats m) c)),
      (((h c).2 Cert.KernelIdeal.main_arg2 (Pipeline.mem_restRefs_of Cert.KernelIdeal.main_arg2 (by decide) (by decide))).trans (Cert.KernelIdeal.Gen.W_main_arg2 m (Cert.KernelIdeal.Gen.dats m) c)),
      (((h c).2 Cert.KernelIdeal.main_arg3 (Pipeline.mem_restRefs_of Cert.KernelIdeal.main_arg3 (by decide) (by decide))).trans (Cert.KernelIdeal.Gen.W_main_arg3 m (Cert.KernelIdeal.Gen.dats m) c)),
      (((h c).2 Cert.KernelIdeal.main_arg4 (Pipeline.mem_restRefs_of Cert.KernelIdeal.main_arg4 (by decide) (by decide))).trans (Cert.KernelIdeal.Gen.W_main_arg4 m (Cert.KernelIdeal.Gen.dats m) c)),
      (((h c).2 Cert.KernelIdeal.main_arg5 (Pipeline.mem_restRefs_of Cert.KernelIdeal.main_arg5 (by decide) (by decide))).trans (Cert.KernelIdeal.Gen.W_main_arg5 m (Cert.KernelIdeal.Gen.dats m) c)),
      (((h c).2 Cert.KernelIdeal.main_arg6 (Pipeline.mem_restRefs_of Cert.KernelIdeal.main_arg6 (by decide) (by decide))).trans (Cert.KernelIdeal.Gen.W_main_arg6 m (Cert.KernelIdeal.Gen.dats m) c)),
      ((h c).1 1).trans (((Cert.KernelIdeal.Gen.dats m 0 c).arrAt_in 1 rfl _).trans ((Cert.KernelIdeal.Gen.A_eq m c 1).trans (Cert.KernelIdeal.Gen.V_main_arg7 m c))),
      ((h c).1 2).trans (((Cert.KernelIdeal.Gen.dats m 0 c).arrAt_in 2 rfl _).trans ((Cert.KernelIdeal.Gen.A_eq m c 2).trans (Cert.KernelIdeal.Gen.V_main_arg8 m c)))⟩
    refine ((h c).2 Cert.KernelIdeal.main_v46 (Pipeline.mem_restRefs_of Cert.KernelIdeal.main_v46 (by decide) (by decide))).trans ?_
    funext i
    obtain ⟨b, e, rfl⟩ : ∃ (b : Fin 1024) (e : Fin 512), i = ix2 b e := ⟨i 0, i 1, eq_ix2 i⟩
    exact kernel_value m (D c) c (hD c) b e
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v31_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]
    funext i
    obtain ⟨b, e, rfl⟩ : ∃ (b : Fin 1024) (e : Fin 512), i = ix2 b e := ⟨i 0, i 1, eq_ix2 i⟩
    refine ref_value (D c) _ _ _ _ _ _ _ _ _ ?_ b e
    have hq := kernel_q m c
    have h7 := Cert.KernelIdeal.Gen.V_main_arg7 m c
    have h8 := Cert.KernelIdeal.Gen.V_main_arg8 m c
    have hDc := hD c
    unfold qarr karr varr at hDc
    rw [h7, h8] at hDc
    rw [← hq]
    exact hDc

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
